-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S4x900x91 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x900x91 : Shape := ⟨3, ![128, 900, 91]⟩
abbrev S128x900x4 : Shape := ⟨3, ![128, 900, 4]⟩
abbrev S128x100 : Shape := ⟨2, ![128, 100]⟩
abbrev S128x100x4 : Shape := ⟨3, ![128, 100, 4]⟩
abbrev S_ : Shape := ⟨0, ![]⟩

class Facts : Prop where
  bcast_S_S128x900x91 : S_.BroadcastsInDim S128x900x91 (![] : Fin 0 → Fin S128x900x91.rank)
  reducesTo_S128x900x91_S_d0_1_2 : S128x900x91.ReducesTo [0, 1, 2] S_
  h_S_ : 0 < S_.numel
  bcast_S_S128x900x4 : S_.BroadcastsInDim S128x900x4 (![] : Fin 0 → Fin S128x900x4.rank)
  reducesTo_S128x900x4_S_d0_1_2 : S128x900x4.ReducesTo [0, 1, 2] S_
  bcast_S_S128x100x4 : S_.BroadcastsInDim S128x100x4 (![] : Fin 0 → Fin S128x100x4.rank)
  reducesTo_S128x100x4_S_d0_1_2 : S128x100x4.ReducesTo [0, 1, 2] S_
  bcast_S_S128x100 : S_.BroadcastsInDim S128x100 (![] : Fin 0 → Fin S128x100.rank)
  reducesTo_S128x100_S_d0_1 : S128x100.ReducesTo [0, 1] S_

variable [Facts]

def fn_part1 {F : FTy → Type} [FloatOps F] (main_arg2 : IVec S128x100 32) (main_v13 : IVec S_ 1) (main_v15 : IVec S128x100 1) (main_c_5 : IVec S_ 1) : IVec S_ 1 :=
  let main_v16 : IVec S_ 1 := (fun x v => Host.reduce IntOp.andi x v reducesTo_S128x100_S_d0_1 h_S_) main_v15 main_c_5
  let main_v17 : IVec S_ 1 := andi main_v13 main_v16
  let main_c_6 : IVec S_ 32 := constantI S_ 32 91#32
  let main_v18 : IVec S128x100 32 := broadcastInDim S128x100 ![] bcast_S_S128x100 main_c_6
  let main_v19 : IVec S128x100 1 := cmpi .slt main_arg2 main_v18
  let main_c_7 : IVec S_ 1 := constantI S_ 1 1#1
  let main_v20 : IVec S_ 1 := (fun x v => Host.reduce IntOp.andi x v reducesTo_S128x100_S_d0_1 h_S_) main_v19 main_c_7
  let main_v21 : IVec S_ 1 := andi main_v17 main_v20
  main_v21

def fn {F : FTy → Type} [FloatOps F] (main_arg0 : FVec F S128x900x91 .f32) (main_arg1 : FVec F S128x900x4 .f32) (main_arg2 : IVec S128x100 32) (main_arg3 : FVec F S128x100x4 .f32) : IVec S_ 1 :=
  let main_v0 : FVec F S128x900x91 .f32 := Host.absf main_arg0
  let main_cst : FVec F S_ .f32 := constant S_ .f32 0x7F800000#32
  let main_v1 : FVec F S128x900x91 .f32 := broadcastInDim S128x900x91 ![] bcast_S_S128x900x91 main_cst
  let main_v2 : IVec S128x900x91 1 := cmpf .olt main_v0 main_v1
  let main_c : IVec S_ 1 := constantI S_ 1 1#1
  let main_v3 : IVec S_ 1 := (fun x v => Host.reduce IntOp.andi x v reducesTo_S128x900x91_S_d0_1_2 h_S_) main_v2 main_c
  let main_v4 : FVec F S128x900x4 .f32 := Host.absf main_arg1
  let main_cst_0 : FVec F S_ .f32 := constant S_ .f32 0x7F800000#32
  let main_v5 : FVec F S128x900x4 .f32 := broadcastInDim S128x900x4 ![] bcast_S_S128x900x4 main_cst_0
  let main_v6 : IVec S128x900x4 1 := cmpf .olt main_v4 main_v5
  let main_c_1 : IVec S_ 1 := constantI S_ 1 1#1
  let main_v7 : IVec S_ 1 := (fun x v => Host.reduce IntOp.andi x v reducesTo_S128x900x4_S_d0_1_2 h_S_) main_v6 main_c_1
  let main_v8 : IVec S_ 1 := andi main_v3 main_v7
  let main_v9 : FVec F S128x100x4 .f32 := Host.absf main_arg3
  let main_cst_2 : FVec F S_ .f32 := constant S_ .f32 0x7F800000#32
  let main_v10 : FVec F S128x100x4 .f32 := broadcastInDim S128x100x4 ![] bcast_S_S128x100x4 main_cst_2
  let main_v11 : IVec S128x100x4 1 := cmpf .olt main_v9 main_v10
  let main_c_3 : IVec S_ 1 := constantI S_ 1 1#1
  let main_v12 : IVec S_ 1 := (fun x v => Host.reduce IntOp.andi x v reducesTo_S128x100x4_S_d0_1_2 h_S_) main_v11 main_c_3
  let main_v13 : IVec S_ 1 := andi main_v8 main_v12
  let main_c_4 : IVec S_ 32 := constantI S_ 32 0#32
  let main_v14 : IVec S128x100 32 := broadcastInDim S128x100 ![] bcast_S_S128x100 main_c_4
  let main_v15 : IVec S128x100 1 := cmpi .sge main_arg2 main_v14
  let main_c_5 : IVec S_ 1 := constantI S_ 1 1#1
  fn_part1 (F := F) main_arg2 main_v13 main_v15 main_c_5
-- ==== Kernel.lean ====
abbrev S128x900x91 : Shape := ⟨3, ![128, 900, 91]⟩
abbrev S128x900x4 : Shape := ⟨3, ![128, 900, 4]⟩
abbrev S128x100 : Shape := ⟨2, ![128, 100]⟩
abbrev S128x100x4 : Shape := ⟨3, ![128, 100, 4]⟩
abbrev S128x1x100 : Shape := ⟨3, ![128, 1, 100]⟩
abbrev S128x4x100 : Shape := ⟨3, ![128, 4, 100]⟩
abbrev S128x900x100 : Shape := ⟨3, ![128, 900, 100]⟩
abbrev S4x900x91 : Shape := ⟨3, ![4, 900, 91]⟩
abbrev S4x900x4 : Shape := ⟨3, ![4, 900, 4]⟩
abbrev S4x4x100 : Shape := ⟨3, ![4, 4, 100]⟩
abbrev S4x1x100 : Shape := ⟨3, ![4, 1, 100]⟩
abbrev S4x900x100 : Shape := ⟨3, ![4, 900, 100]⟩
abbrev S1x91x1 : Shape := ⟨3, ![1, 91, 1]⟩
abbrev S4x91x100 : Shape := ⟨3, ![4, 91, 100]⟩
abbrev S4x900x1 : Shape := ⟨3, ![4, 900, 1]⟩

abbrev nBuf : Space → Nat
  | .hbm => 7
  | .vmem => 10
  | .smem => 0
  | _ => 0

abbrev bufTy : (tb : Table) → Fin (tcTables nBuf tb) → BufTy
  | .hbm, ⟨0, _⟩ => ⟨S128x900x91, .f32⟩
  | .hbm, ⟨1, _⟩ => ⟨S128x900x4, .f32⟩
  | .hbm, ⟨2, _⟩ => ⟨S128x100, .i32⟩
  | .hbm, ⟨3, _⟩ => ⟨S128x100x4, .f32⟩
  | .hbm, ⟨4, _⟩ => ⟨S128x1x100, .i32⟩
  | .hbm, ⟨5, _⟩ => ⟨S128x4x100, .f32⟩
  | .hbm, ⟨6, _⟩ => ⟨S128x900x100, .f32⟩
  | .local _ .vmem, ⟨0, _⟩ => ⟨S4x900x91, .f32⟩
  | .local _ .vmem, ⟨1, _⟩ => ⟨S4x900x91, .f32⟩
  | .local _ .vmem, ⟨2, _⟩ => ⟨S4x900x4, .f32⟩
  | .local _ .vmem, ⟨3, _⟩ => ⟨S4x900x4, .f32⟩
  | .local _ .vmem, ⟨4, _⟩ => ⟨S4x4x100, .f32⟩
  | .local _ .vmem, ⟨5, _⟩ => ⟨S4x4x100, .f32⟩
  | .local _ .vmem, ⟨6, _⟩ => ⟨S4x1x100, .i32⟩
  | .local _ .vmem, ⟨7, _⟩ => ⟨S4x1x100, .i32⟩
  | .local _ .vmem, ⟨8, _⟩ => ⟨S4x900x100, .f32⟩
  | .local _ .vmem, ⟨9, _⟩ => ⟨S4x900x100, .f32⟩
  | _, _ => ⟨S128x900x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x900x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x900x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x4x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x100 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x900x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128x100_S128x1x100 : S128x100.ShapeCasts S128x1x100
  transposes_S128x100x4_S128x4x100_0_2_1 : S128x100x4.Transposes [0, 2, 1] S128x4x100
  inb_S4x900x91_S4x900x91_0_0_0 : ∀ a, (![0, 0, 0] : Fin 3 → Nat) a + S4x900x91.size a ≤ S4x900x91.size a
  h_S4x900x91 : 0 < S4x900x91.numel
  inb_S4x1x100_S4x1x100_0_0_0 : ∀ a, (![0, 0, 0] : Fin 3 → Nat) a + S4x1x100.size a ≤ S4x1x100.size a
  h_S4x1x100 : 0 < S4x1x100.numel
  shapeCasts_S4x1x100_S4x1x100 : S4x1x100.ShapeCasts S4x1x100
  iota_S1x91x1_d1_w32 : S1x91x1.Iotas .tc 32 [1]
  broadcasts_S1x91x1_S4x91x100 : S1x91x1.Broadcasts S4x91x100
  broadcasts_S4x1x100_S4x91x100 : S4x1x100.Broadcasts S4x91x100
  natLt_1_32 : 1 < 32
  bitsLt_bf16_f32 : FTy.bits .bf16 < FTy.bits .f32
  inb_S4x900x4_S4x900x4_0_0_0 : ∀ a, (![0, 0, 0] : Fin 3 → Nat) a + S4x900x4.size a ≤ S4x900x4.size a
  h_S4x900x4 : 0 < S4x900x4.numel
  slices_S4x900x4_o0_0_0_S4x900x1 : S4x900x4.Slices ![0, 0, 0] S4x900x1
  slices_S4x900x4_o0_0_1_S4x900x1 : S4x900x4.Slices ![0, 0, 1] S4x900x1
  slices_S4x900x4_o0_0_2_S4x900x1 : S4x900x4.Slices ![0, 0, 2] S4x900x1
  slices_S4x900x4_o0_0_3_S4x900x1 : S4x900x4.Slices ![0, 0, 3] S4x900x1
  inb_S4x4x100_S4x4x100_0_0_0 : ∀ a, (![0, 0, 0] : Fin 3 → Nat) a + S4x4x100.size a ≤ S4x4x100.size a
  h_S4x4x100 : 0 < S4x4x100.numel
  shapeCasts_S4x4x100_S4x4x100 : S4x4x100.ShapeCasts S4x4x100
  slices_S4x4x100_o0_0_0_S4x1x100 : S4x4x100.Slices ![0, 0, 0] S4x1x100
  slices_S4x4x100_o0_1_0_S4x1x100 : S4x4x100.Slices ![0, 1, 0] S4x1x100
  slices_S4x4x100_o0_2_0_S4x1x100 : S4x4x100.Slices ![0, 2, 0] S4x1x100
  slices_S4x4x100_o0_3_0_S4x1x100 : S4x4x100.Slices ![0, 3, 0] S4x1x100
  broadcasts_S4x900x1_S4x900x100 : S4x900x1.Broadcasts S4x900x100
  broadcasts_S4x1x100_S4x900x100 : S4x1x100.Broadcasts S4x900x100
  inb_S4x900x100_S4x900x100_0_0_0 : ∀ a, (![0, 0, 0] : Fin 3 → Nat) a + S4x900x100.size a ≤ S4x900x100.size a
  h_S4x900x100 : 0 < S4x900x100.numel
  dot_S4x900x91_S4x91x100_S4x900x100_2_1_1_2_0_0_wf : DotDims.WF S4x900x91 S4x91x100 S4x900x100 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x900x91.size a ≤ S128x900x91.size a
  hwx0_0 : ∀ i : grid0.Coords, EltTy.bits .f32 = 32 ∨ (Rect.block (s := S128x900x91) S4x900x91.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x900x4.size a ≤ S128x900x4.size a
  hwx0_1 : ∀ i : grid0.Coords, EltTy.bits .f32 = 32 ∨ (Rect.block (s := S128x900x4) S4x900x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x4x100.size a ≤ S128x4x100.size a
  hwx0_2 : ∀ i : grid0.Coords, EltTy.bits .f32 = 32 ∨ (Rect.block (s := S128x4x100) S4x4x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x100.size a ≤ S128x1x100.size a
  hwx0_3 : ∀ i : grid0.Coords, EltTy.bits .i32 = 32 ∨ (Rect.block (s := S128x1x100) S4x1x100.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x900x100.size a ≤ S128x900x100.size a
  hwx0_4 : ∀ i : grid0.Coords, EltTy.bits .f32 = 32 ∨ (Rect.block (s := S128x900x100) S4x900x100.size (cc0_transform_4 i) (hinb0_4 i)).WholeWords (EltTy.packing .f32)

variable [Facts₀]

def dot_S4x900x91_S4x91x100_S4x900x100_2_1_1_2_0_0 : DotDims S4x900x91 S4x91x100 S4x900x100 where
  lhsContracting := [2]
  rhsContracting := [1]
  lhsNonContracting := [1]
  rhsNonContracting := [2]
  lhsBatch := [0]
  rhsBatch := [0]
  wf := dot_S4x900x91_S4x91x100_S4x900x100_2_1_1_2_0_0_wf

abbrev win0_0 : Pipeline.Window sig grid0 :=
  Pipeline.Window.ofSpec (Memref.whole main_arg0) S4x900x91.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x900x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x4x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x1x100.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4x900x100.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x900x91 : Shape := ⟨3, ![128, 900, 91]⟩
abbrev S128x900x4 : Shape := ⟨3, ![128, 900, 4]⟩
abbrev S128x100 : Shape := ⟨2, ![128, 100]⟩
abbrev S128x100x4 : Shape := ⟨3, ![128, 100, 4]⟩
abbrev S_ : Shape := ⟨0, ![]⟩
abbrev S128x1x100 : Shape := ⟨3, ![128, 1, 100]⟩
abbrev S128x100x1 : Shape := ⟨3, ![128, 100, 1]⟩
abbrev S1 : Shape := ⟨1, ![1]⟩
abbrev S1x1x1 : Shape := ⟨3, ![1, 1, 1]⟩
abbrev S128x900x100 : Shape := ⟨3, ![128, 900, 100]⟩
abbrev S128x900x1x4 : Shape := ⟨4, ![128, 900, 1, 4]⟩
abbrev S128x1x100x4 : Shape := ⟨4, ![128, 1, 100, 4]⟩
abbrev S128x900x100x4 : Shape := ⟨4, ![128, 900, 100, 4]⟩
abbrev S128x900x1 : Shape := ⟨3, ![128, 900, 1]⟩
abbrev S128x900 : Shape := ⟨2, ![128, 900]⟩
abbrev S128x900x2 : Shape := ⟨3, ![128, 900, 2]⟩
abbrev S128x900x1x2 : Shape := ⟨4, ![128, 900, 1, 2]⟩
abbrev S128x100x2 : Shape := ⟨3, ![128, 100, 2]⟩
abbrev S128x1x100x2 : Shape := ⟨4, ![128, 1, 100, 2]⟩
abbrev S128x900x100x2 : Shape := ⟨4, ![128, 900, 100, 2]⟩
abbrev S128x900x100x1 : Shape := ⟨4, ![128, 900, 100, 1]⟩

abbrev nBuf : Space → Nat
  | .hbm => 209
  | .vmem => 0
  | .smem => 0
  | _ => 0

abbrev hbmTy0_0 (i : Nat) : BufTy := match i % 128 with
  | 0 => ⟨S128x900x91, .f32⟩
  | 1 => ⟨S128x900x4, .f32⟩
  | 2 => ⟨S128x100, .i32⟩
  | 3 => ⟨S128x100x4, .f32⟩
  | 4 => ⟨S128x900x91, .f32⟩
  | 5 => ⟨S128x900x91, .f32⟩
  | 6 => ⟨S_, .f32⟩
  | 7 => ⟨S128x900x91, .f32⟩
  | 8 => ⟨S128x900x91, .f32⟩
  | 9 => ⟨S_, .f32⟩
  | 10 => ⟨S128x900x91, .f32⟩
  | 11 => ⟨S128x900x91, .f32⟩
  | 12 => ⟨S_, .f32⟩
  | 13 => ⟨S128x900x91, .f32⟩
  | 14 => ⟨S128x900x91, .f32⟩
  | 15 => ⟨S_, .f32⟩
  | 16 => ⟨S128x900x91, .f32⟩
  | 17 => ⟨S128x900x91, .f32⟩
  | 18 => ⟨S_, .f32⟩
  | 19 => ⟨S128x900x91, .f32⟩
  | 20 => ⟨S128x900x91, .f32⟩
  | 21 => ⟨S_, .f32⟩
  | 22 => ⟨S128x900x91, .f32⟩
  | 23 => ⟨S128x900x91, .f32⟩
  | 24 => ⟨S128x900x91, .f32⟩
  | 25 => ⟨S128x900x91, .f32⟩
  | 26 => ⟨S128x900x91, .f32⟩
  | 27 => ⟨S_, .f32⟩
  | 28 => ⟨S128x900x91, .f32⟩
  | 29 => ⟨S128x900x91, .f32⟩
  | 30 => ⟨S_, .f32⟩
  | 31 => ⟨S128x900x91, .f32⟩
  | 32 => ⟨S128x900x91, .f32⟩
  | 33 => ⟨S_, .f32⟩
  | 34 => ⟨S128x900x91, .f32⟩
  | 35 => ⟨S128x900x91, .f32⟩
  | 36 => ⟨S_, .f32⟩
  | 37 => ⟨S128x900x91, .f32⟩
  | 38 => ⟨S128x900x91, .f32⟩
  | 39 => ⟨S128x900x91, .f32⟩
  | 40 => ⟨S128x900x91, .f32⟩
  | 41 => ⟨S128x900x91, .f32⟩
  | 42 => ⟨S128x900x91, .f32⟩
  | 43 => ⟨S128x1x100, .i32⟩
  | 44 => ⟨S_, .i32⟩
  | 45 => ⟨S128x1x100, .i32⟩
  | 46 => ⟨S128x1x100, .i1⟩
  | 47 => ⟨S_, .i32⟩
  | 48 => ⟨S128x1x100, .i32⟩
  | 49 => ⟨S128x1x100, .i32⟩
  | 50 => ⟨S128x1x100, .i32⟩
  | 51 => ⟨S128x100x1, .i32⟩
  | 52 => ⟨S1, .i32⟩
  | 53 => ⟨S_, .i32⟩
  | 54 => ⟨S128x100x1, .i32⟩
  | 55 => ⟨S128x100x1, .i1⟩
  | 56 => ⟨S1x1x1, .i32⟩
  | 57 => ⟨S128x100x1, .i32⟩
  | 58 => ⟨S128x100x1, .i1⟩
  | 59 => ⟨S128x100x1, .i1⟩
  | 60 => ⟨S_, .i1⟩
  | 61 => ⟨S128x100, .i1⟩
  | 62 => ⟨S128x900x100, .f32⟩
  | 63 => ⟨S128x900x100, .i1⟩
  | 64 => ⟨S_, .f32⟩
  | 65 => ⟨S128x900x100, .f32⟩
  | 66 => ⟨S128x900x100, .f32⟩
  | 67 => ⟨S128x900x1x4, .f32⟩
  | 68 => ⟨S128x1x100x4, .f32⟩
  | 69 => ⟨S128x900x100x4, .f32⟩
  | 70 => ⟨S128x900x100x4, .f32⟩
  | 71 => ⟨S128x900x100x4, .f32⟩
  | 72 => ⟨S128x900x100x4, .f32⟩
  | 73 => ⟨S_, .f32⟩
  | 74 => ⟨S128x900x100, .f32⟩
  | 75 => ⟨S128x900x1, .f32⟩
  | 76 => ⟨S128x900x1, .f32⟩
  | 77 => ⟨S128x900x1, .f32⟩
  | 78 => ⟨S128x900x1, .f32⟩
  | 79 => ⟨S_, .f32⟩
  | 80 => ⟨S128x900x1, .f32⟩
  | 81 => ⟨S128x900x1, .f32⟩
  | 82 => ⟨S128x900x1, .f32⟩
  | 83 => ⟨S_, .f32⟩
  | 84 => ⟨S128x900x1, .f32⟩
  | 85 => ⟨S128x900x1, .f32⟩
  | 86 => ⟨S128x900x1, .f32⟩
  | 87 => ⟨S_, .f32⟩
  | 88 => ⟨S128x900x1, .f32⟩
  | 89 => ⟨S128x900x1, .f32⟩
  | 90 => ⟨S128x900x1, .f32⟩
  | 91 => ⟨S_, .f32⟩
  | 92 => ⟨S128x900x1, .f32⟩
  | 93 => ⟨S128x900x1, .f32⟩
  | 94 => ⟨S128x900x1, .f32⟩
  | 95 => ⟨S128x900x4, .f32⟩
  | 96 => ⟨S128x100x1, .f32⟩
  | 97 => ⟨S128x100x1, .f32⟩
  | 98 => ⟨S128x100x1, .f32⟩
  | 99 => ⟨S128x100x1, .f32⟩
  | 100 => ⟨S_, .f32⟩
  | 101 => ⟨S128x100x1, .f32⟩
  | 102 => ⟨S128x100x1, .f32⟩
  | 103 => ⟨S128x100x1, .f32⟩
  | 104 => ⟨S_, .f32⟩
  | 105 => ⟨S128x100x1, .f32⟩
  | 106 => ⟨S128x100x1, .f32⟩
  | 107 => ⟨S128x100x1, .f32⟩
  | 108 => ⟨S_, .f32⟩
  | 109 => ⟨S128x100x1, .f32⟩
  | 110 => ⟨S128x100x1, .f32⟩
  | 111 => ⟨S128x100x1, .f32⟩
  | 112 => ⟨S_, .f32⟩
  | 113 => ⟨S128x100x1, .f32⟩
  | 114 => ⟨S128x100x1, .f32⟩
  | 115 => ⟨S128x100x1, .f32⟩
  | 116 => ⟨S128x100x4, .f32⟩
  | 117 => ⟨S128x900x1, .f32⟩
  | 118 => ⟨S128x900, .f32⟩
  | 119 => ⟨S128x900x1, .f32⟩
  | 120 => ⟨S128x900, .f32⟩
  | 121 => ⟨S128x900, .f32⟩
  | 122 => ⟨S128x900x1, .f32⟩
  | 123 => ⟨S128x900, .f32⟩
  | 124 => ⟨S128x900x1, .f32⟩
  | 125 => ⟨S128x900, .f32⟩
  | 126 => ⟨S128x900, .f32⟩
  | 127 => ⟨S128x900, .f32⟩
  | _ => ⟨S128x900x91, .f32⟩

abbrev hbmTy0_1 (i : Nat) : BufTy := match i % 128 with
  | 0 => ⟨S128x100x1, .f32⟩
  | 1 => ⟨S128x100, .f32⟩
  | 2 => ⟨S128x100x1, .f32⟩
  | 3 => ⟨S128x100, .f32⟩
  | 4 => ⟨S128x100, .f32⟩
  | 5 => ⟨S128x100x1, .f32⟩
  | 6 => ⟨S128x100, .f32⟩
  | 7 => ⟨S128x100x1, .f32⟩
  | 8 => ⟨S128x100, .f32⟩
  | 9 => ⟨S128x100, .f32⟩
  | 10 => ⟨S128x100, .f32⟩
  | 11 => ⟨S128x900x2, .f32⟩
  | 12 => ⟨S128x900x1x2, .f32⟩
  | 13 => ⟨S128x100x2, .f32⟩
  | 14 => ⟨S128x1x100x2, .f32⟩
  | 15 => ⟨S128x900x100x2, .f32⟩
  | 16 => ⟨S128x900x100x2, .f32⟩
  | 17 => ⟨S128x900x100x2, .f32⟩
  | 18 => ⟨S128x900x2, .f32⟩
  | 19 => ⟨S128x900x1x2, .f32⟩
  | 20 => ⟨S128x100x2, .f32⟩
  | 21 => ⟨S128x1x100x2, .f32⟩
  | 22 => ⟨S128x900x100x2, .f32⟩
  | 23 => ⟨S128x900x100x2, .f32⟩
  | 24 => ⟨S128x900x100x2, .f32⟩
  | 25 => ⟨S128x900x100x2, .f32⟩
  | 26 => ⟨S_, .f32⟩
  | 27 => ⟨S_, .f32⟩
  | 28 => ⟨S128x900x100x2, .f32⟩
  | 29 => ⟨S128x900x100x2, .f32⟩
  | 30 => ⟨S128x900x100x1, .f32⟩
  | 31 => ⟨S128x900x100, .f32⟩
  | 32 => ⟨S128x900x100x1, .f32⟩
  | 33 => ⟨S128x900x100, .f32⟩
  | 34 => ⟨S128x900x100, .f32⟩
  | 35 => ⟨S128x900x1, .f32⟩
  | 36 => ⟨S128x1x100, .f32⟩
  | 37 => ⟨S128x900x100, .f32⟩
  | 38 => ⟨S128x900x100, .f32⟩
  | 39 => ⟨S128x900x100, .f32⟩
  | 40 => ⟨S128x900x100, .f32⟩
  | 41 => ⟨S128x900x100, .f32⟩
  | 42 => ⟨S128x900x2, .f32⟩
  | 43 => ⟨S128x900x1x2, .f32⟩
  | 44 => ⟨S128x100x2, .f32⟩
  | 45 => ⟨S128x1x100x2, .f32⟩
  | 46 => ⟨S128x900x100x2, .f32⟩
  | 47 => ⟨S128x900x100x2, .f32⟩
  | 48 => ⟨S128x900x100x2, .f32⟩
  | 49 => ⟨S128x900x2, .f32⟩
  | 50 => ⟨S128x900x1x2, .f32⟩
  | 51 => ⟨S128x100x2, .f32⟩
  | 52 => ⟨S128x1x100x2, .f32⟩
  | 53 => ⟨S128x900x100x2, .f32⟩
  | 54 => ⟨S128x900x100x2, .f32⟩
  | 55 => ⟨S128x900x100x2, .f32⟩
  | 56 => ⟨S128x900x100x2, .f32⟩
  | 57 => ⟨S_, .f32⟩
  | 58 => ⟨S_, .f32⟩
  | 59 => ⟨S128x900x100x2, .f32⟩
  | 60 => ⟨S128x900x100x2, .f32⟩
  | 61 => ⟨S128x900x100x1, .f32⟩
  | 62 => ⟨S128x900x100, .f32⟩
  | 63 => ⟨S128x900x100x1, .f32⟩
  | 64 => ⟨S128x900x100, .f32⟩
  | 65 => ⟨S128x900x100, .f32⟩
  | 66 => ⟨S128x900x100, .f32⟩
  | 67 => ⟨S128x900x100, .f32⟩
  | 68 => ⟨S128x900x100, .f32⟩
  | 69 => ⟨S128x900x100, .f32⟩
  | 70 => ⟨S_, .f32⟩
  | 71 => ⟨S128x900x100, .f32⟩
  | 72 => ⟨S128x900x100, .f32⟩
  | 73 => ⟨S_, .f32⟩
  | 74 => ⟨S128x900x100, .f32⟩
  | 75 => ⟨S128x900x100, .f32⟩
  | 76 => ⟨S128x900x100, .f32⟩
  | 77 => ⟨S_, .f32⟩
  | 78 => ⟨S128x900x100, .f32⟩
  | 79 => ⟨S128x900x100, .f32⟩
  | 80 => ⟨S128x900x100, .f32⟩
  | _ => ⟨S128x900x91, .f32⟩

abbrev hbmTy (i : Nat) : BufTy := match i / 128 with
  | 0 => hbmTy0_0 i
  | 1 => hbmTy0_1 i
  | _ => ⟨S128x900x91, .f32⟩

abbrev bufTy : (tb : Table) → Fin (tcTables nBuf tb) → BufTy
  | .hbm, ⟨i, _⟩ => hbmTy i
  | _, _ => ⟨S128x900x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_c : Ref sig .tc := ⟨.hbm, 44, rfl⟩
abbrev main_call0_v0 : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_c_1 : Ref sig .tc := ⟨.hbm, 52, rfl⟩
abbrev main_call0_c_2 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_3 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_call0_cst : Ref sig .tc := ⟨.hbm, 64, rfl⟩
abbrev main_call0_v15 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_9 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_10 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_11 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_12 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_13 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_14 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_15 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_cst_16 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_17 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_18 : Ref sig .tc := ⟨.hbm, 154, rfl⟩
abbrev main_call1_v0 : Ref sig .tc := ⟨.hbm, 155, rfl⟩
abbrev main_call1_v1 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_19 : Ref sig .tc := ⟨.hbm, 185, rfl⟩
abbrev main_call2_v0 : Ref sig .tc := ⟨.hbm, 186, rfl⟩
abbrev main_call2_v1 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_cst_20 : Ref sig .tc := ⟨.hbm, 198, rfl⟩
abbrev main_v147 : Ref sig .tc := ⟨.hbm, 199, rfl⟩
abbrev main_v148 : Ref sig .tc := ⟨.hbm, 200, rfl⟩
abbrev main_cst_21 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_cst_22 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩

abbrev nD : Nat := 1
abbrev τ : Topo := Topo.v7x

variable {F : FTy → Type} [FloatOps F]

class Facts₀ : Prop where
  bcast_S_S128x900x91 : S_.BroadcastsInDim S128x900x91 (![] : Fin 0 → Fin S128x900x91.rank)
  bcast_S128x100_S128x1x100_0_2 : S128x100.BroadcastsInDim S128x1x100 (![0, 2] : Fin 2 → Fin S128x1x100.rank)
  bcast_S_S128x1x100 : S_.BroadcastsInDim S128x1x100 (![] : Fin 0 → Fin S128x1x100.rank)
  shapeCasts_S128x1x100_S128x100x1 : S128x1x100.ShapeCasts S128x100x1
  bcast_S_S128x100x1 : S_.BroadcastsInDim S128x100x1 (![] : Fin 0 → Fin S128x100x1.rank)
  bcast_S1_S1x1x1_2 : S1.BroadcastsInDim S1x1x1 (![2] : Fin 1 → Fin S1x1x1.rank)
  bcast_S1x1x1_S128x100x1_0_1_2 : S1x1x1.BroadcastsInDim S128x100x1 (![0, 1, 2] : Fin 3 → Fin S128x100x1.rank)
  reducesTo_S128x100x1_S128x100_d2 : S128x100x1.ReducesTo [2] S128x100
  h_S_ : 0 < S_.numel
  bcast_S128x100_S128x900x100_0_2 : S128x100.BroadcastsInDim S128x900x100 (![0, 2] : Fin 2 → Fin S128x900x100.rank)
  bcast_S_S128x900x100 : S_.BroadcastsInDim S128x900x100 (![] : Fin 0 → Fin S128x900x100.rank)
  bcast_S128x900x4_S128x900x1x4_0_1_3 : S128x900x4.BroadcastsInDim S128x900x1x4 (![0, 1, 3] : Fin 3 → Fin S128x900x1x4.rank)
  bcast_S128x100x4_S128x1x100x4_0_2_3 : S128x100x4.BroadcastsInDim S128x1x100x4 (![0, 2, 3] : Fin 3 → Fin S128x1x100x4.rank)
  bcast_S128x900x1x4_S128x900x100x4_0_1_2_3 : S128x900x1x4.BroadcastsInDim S128x900x100x4 (![0, 1, 2, 3] : Fin 4 → Fin S128x900x100x4.rank)
  bcast_S128x1x100x4_S128x900x100x4_0_1_2_3 : S128x1x100x4.BroadcastsInDim S128x900x100x4 (![0, 1, 2, 3] : Fin 4 → Fin S128x900x100x4.rank)
  reducesTo_S128x900x100x4_S128x900x100_d3 : S128x900x100x4.ReducesTo [3] S128x900x100
  slices_S128x900x4_S128x900x1_0_0_0 : S128x900x4.Slices ![0, 0, 0] S128x900x1
  slices_S128x900x4_S128x900x1_0_0_1 : S128x900x4.Slices ![0, 0, 1] S128x900x1
  slices_S128x900x4_S128x900x1_0_0_2 : S128x900x4.Slices ![0, 0, 2] S128x900x1
  slices_S128x900x4_S128x900x1_0_0_3 : S128x900x4.Slices ![0, 0, 3] S128x900x1
  bcast_S_S128x900x1 : S_.BroadcastsInDim S128x900x1 (![] : Fin 0 → Fin S128x900x1.rank)
  concatenates_S128x900x1_S128x900x1_S128x900x1_S128x900x1_S128x900x4_d2 : Shape.Concatenates [S128x900x1, S128x900x1, S128x900x1, S128x900x1] S128x900x4 2
  slices_S128x100x4_S128x100x1_0_0_0 : S128x100x4.Slices ![0, 0, 0] S128x100x1
  slices_S128x100x4_S128x100x1_0_0_1 : S128x100x4.Slices ![0, 0, 1] S128x100x1
  slices_S128x100x4_S128x100x1_0_0_2 : S128x100x4.Slices ![0, 0, 2] S128x100x1
  slices_S128x100x4_S128x100x1_0_0_3 : S128x100x4.Slices ![0, 0, 3] S128x100x1
  concatenates_S128x100x1_S128x100x1_S128x100x1_S128x100x1_S128x100x4_d2 : Shape.Concatenates [S128x100x1, S128x100x1, S128x100x1, S128x100x1] S128x100x4 2
  shapeCasts_S128x900x1_S128x900 : S128x900x1.ShapeCasts S128x900
  shapeCasts_S128x100x1_S128x100 : S128x100x1.ShapeCasts S128x100
  slices_S128x900x4_S128x900x2_0_0_0 : S128x900x4.Slices ![0, 0, 0] S128x900x2
  bcast_S128x900x2_S128x900x1x2_0_1_3 : S128x900x2.BroadcastsInDim S128x900x1x2 (![0, 1, 3] : Fin 3 → Fin S128x900x1x2.rank)
  slices_S128x100x4_S128x100x2_0_0_0 : S128x100x4.Slices ![0, 0, 0] S128x100x2
  bcast_S128x100x2_S128x1x100x2_0_2_3 : S128x100x2.BroadcastsInDim S128x1x100x2 (![0, 2, 3] : Fin 3 → Fin S128x1x100x2.rank)
  bcast_S128x900x1x2_S128x900x100x2_0_1_2_3 : S128x900x1x2.BroadcastsInDim S128x900x100x2 (![0, 1, 2, 3] : Fin 4 → Fin S128x900x100x2.rank)
  bcast_S128x1x100x2_S128x900x100x2_0_1_2_3 : S128x1x100x2.BroadcastsInDim S128x900x100x2 (![0, 1, 2, 3] : Fin 4 → Fin S128x900x100x2.rank)
  slices_S128x900x4_S128x900x2_0_0_2 : S128x900x4.Slices ![0, 0, 2] S128x900x2
  slices_S128x100x4_S128x100x2_0_0_2 : S128x100x4.Slices ![0, 0, 2] S128x100x2
  bcast_S_S128x900x100x2 : S_.BroadcastsInDim S128x900x100x2 (![] : Fin 0 → Fin S128x900x100x2.rank)
  slices_S128x900x100x2_S128x900x100x1_0_0_0_0 : S128x900x100x2.Slices ![0, 0, 0, 0] S128x900x100x1
  shapeCasts_S128x900x100x1_S128x900x100 : S128x900x100x1.ShapeCasts S128x900x100
  slices_S128x900x100x2_S128x900x100x1_0_0_0_1 : S128x900x100x2.Slices ![0, 0, 0, 1] S128x900x100x1
  bcast_S128x900_S128x900x1_0_1 : S128x900.BroadcastsInDim S128x900x1 (![0, 1] : Fin 2 → Fin S128x900x1.rank)
  bcast_S128x900x1_S128x900x100_0_1_2 : S128x900x1.BroadcastsInDim S128x900x100 (![0, 1, 2] : Fin 3 → Fin S128x900x100.rank)
  bcast_S128x1x100_S128x900x100_0_1_2 : S128x1x100.BroadcastsInDim S128x900x100 (![0, 1, 2] : Fin 3 → Fin S128x900x100.rank)
  gather_S128x900x91_S128x100x1_S128x900x100_1_2_0_0_2_2_19001_wf : GatherDims.WF S128x900x91 S128x100x1 S128x900x100 [1] [2] [0] [2] [0] 2 ![1, 900, 1]

variable [Facts₀]

def gather_S128x900x91_S128x100x1_S128x900x100_1_2_0_0_2_2_19001 : GatherDims S128x900x91 S128x100x1 S128x900x100 where
  offsetDims := [1]
  collapsedSliceDims := [2]
  operandBatchingDims := [0]
  startIndicesBatchingDims := [0]
  startIndexMap := [2]
  indexVectorDim := 2
  sliceSizes := ![1, 900, 1]
  wf := gather_S128x900x91_S128x100x1_S128x900x100_1_2_0_0_2_2_19001_wf

class Facts : Prop extends Facts₀ where

variable [Facts]
-- ==== Proof.CostSpec.lean ====
/-
  The matching cost of one (query, target) pair, as scalar functions on the extended reals.

  Both programs compute, for batch entry B, query n and target m,
      2 · class(B, n, label(B, m)) + 5 · ‖pred(B, n, ·) − tgt(B, m, ·)‖₁ + 2 · (−GIoU(pred(B, n, ·), tgt(B, m, ·))).
  The two spellings differ in four places, each harmless on finite inputs with labels in range:
  the sigmoid as one operation against 1 / (1 + e^(−x)) (one function by definition); the square as a
  product against a power with exponent 2; the class cost picked by a sum against an indicator column
  (twice: once for the value, once for the value minus itself) against a direct read; and the clamp at zero
  with its arguments in either order. Each spelling is written here once, so that the index work on the two
  programs and the algebra between the spellings are separate.
-/
import Idealize.ShloMosaic.PureOps.Ideal
import Idealize.ShloMosaic.Lib.ValueIdx

noncomputable section

namespace Cert.CostSpec

open Idealize.ShloMosaic
open scoped BigOperators

/-- The literals of the two programs, as the words they are printed with. -/
abbrev c0 : EReal := Ideal.ofBits .f32 0x00000000#32
abbrev c1 : EReal := Ideal.ofBits .f32 0x3F800000#32
abbrev c2 : EReal := Ideal.ofBits .f32 0x40000000#32
abbrev c5 : EReal := Ideal.ofBits .f32 0x40A00000#32
abbrev cHalf : EReal := Ideal.ofBits .f32 0x3F000000#32
abbrev cQuarter : EReal := Ideal.ofBits .f32 0x3E800000#32
abbrev cThreeQuarters : EReal := Ideal.ofBits .f32 0x3F400000#32
abbrev cEps : EReal := Ideal.ofBits .f32 0x322BCC77#32
abbrev cNaN : EReal := Ideal.ofBits .f32 0x7FC00000#32

/-- |x| as both programs compute it. -/
def absE (x : EReal) : EReal := max x (-x)

/-- The focal class cost of one logit, the sigmoid one operation and the squares products:
    ¼ (1 − s)² · (0 − log (s + ε)) − ¾ s² · (0 − log ((1 − s) + ε)). -/
def focalK (x : EReal) : EReal :=
  (cQuarter * ((c1 - Ideal.logistic x) * (c1 - Ideal.logistic x))) * (c0 - Ideal.log (Ideal.logistic x + cEps))
    - (cThreeQuarters * (Ideal.logistic x * Ideal.logistic x)) * (c0 - Ideal.log ((c1 - Ideal.logistic x) + cEps))

/-- The sigmoid spelt out: 1 / (1 + e^(−x)). -/
def sigR (x : EReal) : EReal := Ideal.div c1 (c1 + Ideal.exp (-x))

/-- The same cost with the sigmoid spelt out, the squares as powers and the logarithms negated. -/
def focalR (x : EReal) : EReal :=
  (cQuarter * Ideal.pow (c1 - sigR x) c2) * (-(Ideal.log (sigR x + cEps)))
    - (cThreeQuarters * Ideal.pow (sigR x) c2) * (-(Ideal.log ((c1 - sigR x) + cEps)))

/-- The indicator of "class c is the label", as the number the kernel multiplies by: the comparison's bit,
    widened and converted. -/
def oneHot (c : Fin 91) (lab : BitVec 32) : EReal :=
  FloatOps.sitofp (F := Ideal) .f32 ((IntOp.cmpi .eq (BitVec.ofNat 32 c.val) lab).setWidth 32)

/-- The class cost picked out of a row of 91 by two sums against the indicator column: the row itself,
    and the row minus itself. -/
def pickK (f : Fin 91 → EReal) (lab : BitVec 32) : EReal :=
  (c0 + ∑ c : Fin 91, f c * oneHot c lab) + (c0 + ∑ c : Fin 91, (f c - f c) * oneHot c lab)

/-- The L1 distance of two boxes, added left to right. -/
def l1K (p q : Fin 4 → EReal) : EReal :=
  ((absE (p 0 - q 0) + absE (p 1 - q 1)) + absE (p 2 - q 2)) + absE (p 3 - q 3)

/-- The L1 distance as a sum from zero. -/
def l1R (p q : Fin 4 → EReal) : EReal := c0 + ∑ k : Fin 4, absE (p k - q k)

/-- The generalized IoU of two boxes given as (cx, cy, w, h), with the clamp at zero a parameter:
    corners cx ∓ w/2, cy ∓ h/2; the areas; the intersection's and the enclosing box's clamped extents;
    IoU − (enclosing − union) / enclosing. -/
def giouWith (clip : EReal → EReal) (p q : Fin 4 → EReal) : EReal :=
  let px1 := p 0 - cHalf * p 2
  let py1 := p 1 - cHalf * p 3
  let px2 := p 0 + cHalf * p 2
  let py2 := p 1 + cHalf * p 3
  let qx1 := q 0 - cHalf * q 2
  let qy1 := q 1 - cHalf * q 3
  let qx2 := q 0 + cHalf * q 2
  let qy2 := q 1 + cHalf * q 3
  let areaP := (px2 - px1) * (py2 - py1)
  let areaQ := (qx2 - qx1) * (qy2 - qy1)
  let inter := clip (min px2 qx2 - max px1 qx1) * clip (min py2 qy2 - max py1 qy1)
  let union := (areaP + areaQ) - inter
  let areaE := clip (max px2 qx2 - min px1 qx1) * clip (max py2 qy2 - min py1 qy1)
  Ideal.div inter union - Ideal.div (areaE - union) areaE

/-- The clamp written max(x, 0). -/
def giouK (p q : Fin 4 → EReal) : EReal := giouWith (fun x => max x c0) p q
/-- The clamp written max(0, x). -/
def giouR (p q : Fin 4 → EReal) : EReal := giouWith (fun x => max c0 x) p q

/-- The weighted total, the GIoU negated as 0 − g. -/
def totalK (cls l1 g : EReal) : EReal := (c2 * cls + c5 * l1) + c2 * (c0 - g)
/-- The weighted total, the GIoU negated as −g. -/
def totalR (cls l1 g : EReal) : EReal := (c2 * cls + c5 * l1) + c2 * (-g)

end Cert.CostSpec

end
-- ==== Proof.CostLaws.lean ====
/-
  The algebra between the two spellings of the matching cost.

  On a real logit x the sigmoid s = 1 / (1 + e^(−x)) is a real in (0, 1), so s + ε and (1 − s) + ε are positive
  reals, their logarithms are reals, and the focal cost is a real number; a power with exponent 2 of a real is
  its square. Hence the two spellings of the focal cost agree on real logits. A real value minus itself is zero
  (this fails at ±∞, which is why finiteness of the logits is used), anything times the indicator's 0 is 0, so the
  two sums against the indicator column of an in-range label collapse to the one selected entry. The L1 sums
  differ by grouping and a leading zero; the GIoUs by the order of the arguments of a maximum; the totals by
  writing −g as 0 − g.
-/
import proofs.«412822_j86912958202054_2_alg».proof.Proof.CostSpec
import Idealize.ShloMosaic.Lib.IdealHost
import Idealize.ShloMosaic.PureOps.Ideal.Laws

noncomputable section

namespace Cert.CostLaws

open Idealize.ShloMosaic Cert.CostSpec
open scoped BigOperators

/-! ## The literals as numbers -/

theorem c0_eq : c0 = 0 := Ideal.ofBits_zero_f32
theorem c1_eq : c1 = 1 := Ideal.ofBits_one_f32
theorem c2_eq : c2 = ((2 : ℝ) : EReal) := by
  simp [Ideal.ofBits, Ideal.ieee, -EReal.coe_mul]; norm_num
theorem cQuarter_eq : cQuarter = ((1 / 4 : ℝ) : EReal) := by
  simp [Ideal.ofBits, Ideal.ieee, -EReal.coe_mul]; norm_num
theorem cThreeQuarters_eq : cThreeQuarters = ((3 / 4 : ℝ) : EReal) := by
  simp [Ideal.ofBits, Ideal.ieee, -EReal.coe_mul]; norm_num

/-- The value of the word 0x322BCC77: (2²³ + 2870391) · 2⁻⁵⁰, a little under 10⁻⁸. -/
def eps : ℝ := 11258999 / 2 ^ 50
theorem eps_nonneg : 0 ≤ eps := by unfold eps; positivity
theorem cEps_eq : cEps = ((eps : ℝ) : EReal) := by
  unfold eps
  simp [Ideal.ofBits, Ideal.ieee, -EReal.coe_mul]; norm_num

/-! ## The sigmoid of a real -/

def sig (r : ℝ) : ℝ := (1 + Real.exp (-r))⁻¹

theorem sig_pos (r : ℝ) : 0 < sig r := by
  unfold sig; have := Real.exp_pos (-r); positivity

theorem sig_lt_one (r : ℝ) : sig r < 1 := by
  unfold sig
  have h := Real.exp_pos (-r)
  exact inv_lt_one_of_one_lt₀ (by linarith)

theorem logistic_real (r : ℝ) : Ideal.logistic (r : EReal) = ((sig r : ℝ) : EReal) := by
  rw [Ideal.logistic_coe]; rfl

/-- The sigmoid spelt out is the one operation. -/
theorem sigR_eq (x : EReal) : sigR x = Ideal.logistic x := by
  unfold sigR; rw [c1_eq]; rfl

/-- A power with exponent 2 of a real is its square. -/
theorem pow_two_real (s : ℝ) : Ideal.pow (s : EReal) c2 = ((s * s : ℝ) : EReal) := by
  rw [c2_eq, Ideal.pow_coe_coe]
  congr 1
  show s ^ (2 : ℝ) = s * s
  rw [Real.rpow_two, sq]

theorem log_real {x : ℝ} (h : 0 < x) : Ideal.log (x : EReal) = ((Real.log x : ℝ) : EReal) := by
  rw [Ideal.log_coe, if_neg (not_le.mpr h)]

/-! ## The focal cost of a real logit is a real, the same in both spellings -/

def focal (r : ℝ) : ℝ :=
  (1 / 4 * ((1 - sig r) * (1 - sig r))) * (-(Real.log (sig r + eps)))
    - (3 / 4 * (sig r * sig r)) * (-(Real.log ((1 - sig r) + eps)))

theorem one_sub_real (s : ℝ) : (1 : EReal) - ((s : ℝ) : EReal) = (((1 - s : ℝ)) : EReal) := by
  rw [← EReal.coe_one, ← EReal.coe_sub]

theorem focalR_real (r : ℝ) : focalR (r : EReal) = ((focal r : ℝ) : EReal) := by
  have hs := sig_pos r
  have hs1 := sig_lt_one r
  have he := eps_nonneg
  unfold focalR
  rw [sigR_eq, logistic_real, c1_eq, cQuarter_eq, cThreeQuarters_eq, cEps_eq, one_sub_real, pow_two_real, pow_two_real,
    ← EReal.coe_add, ← EReal.coe_add, log_real (by linarith : 0 < sig r + eps), log_real (by linarith : 0 < 1 - sig r + eps)]
  unfold focal
  norm_cast

theorem focalK_real (r : ℝ) : focalK (r : EReal) = ((focal r : ℝ) : EReal) := by
  have hs := sig_pos r
  have hs1 := sig_lt_one r
  have he := eps_nonneg
  unfold focalK
  rw [logistic_real, c1_eq, c0_eq, cQuarter_eq, cThreeQuarters_eq, cEps_eq, one_sub_real,
    ← EReal.coe_add, ← EReal.coe_add, log_real (by linarith : 0 < sig r + eps), log_real (by linarith : 0 < 1 - sig r + eps)]
  have : focal r = (1 / 4 * ((1 - sig r) * (1 - sig r))) * (0 - Real.log (sig r + eps))
      - (3 / 4 * (sig r * sig r)) * (0 - Real.log ((1 - sig r) + eps)) := by unfold focal; ring
  rw [this]
  norm_cast

/-! ## The indicator column and the pick -/

theorem oneHot_eq (c : Fin 91) (lab : BitVec 32) : oneHot c lab = if c.val = lab.toNat then 1 else 0 := by
  unfold oneHot
  show (((((IntOp.cmpi .eq (BitVec.ofNat 32 c.val) lab).setWidth 32).toInt : ℝ)) : EReal) = _
  have hc : c.val < 2 ^ 32 := lt_trans c.isLt (by norm_num)
  by_cases h : c.val = lab.toNat
  · have e : BitVec.ofNat 32 c.val = lab := by
      apply BitVec.eq_of_toNat_eq
      rw [BitVec.toNat_ofNat, Nat.mod_eq_of_lt hc, h]
    rw [if_pos h, e]
    simp [IntOp.cmpi]
  · have e : BitVec.ofNat 32 c.val ≠ lab := by
      intro e
      apply h
      rw [← e, BitVec.toNat_ofNat, Nat.mod_eq_of_lt hc]
    have e' : (BitVec.ofNat 32 c.val == lab) = false := by
      rw [beq_eq_false_iff_ne]; exact e
    rw [if_neg h]
    simp [IntOp.cmpi, e']

/-- The two sums against the indicator column of an in-range label, the selected entry a real: that entry. -/
theorem pick_eq (f : Fin 91 → EReal) (lab : BitVec 32) (h : lab.toNat < 91) (r : ℝ) (hr : f ⟨lab.toNat, h⟩ = (r : EReal)) :
    pickK f lab = f ⟨lab.toNat, h⟩ := by
  unfold pickK
  have hne : ∀ c : Fin 91, c ≠ ⟨lab.toNat, h⟩ → oneHot c lab = 0 := fun c hc => by
    rw [oneHot_eq, if_neg (fun e => hc (Fin.ext e))]
  have hL : oneHot ⟨lab.toNat, h⟩ lab = 1 := by rw [oneHot_eq, if_pos rfl]
  rw [Finset.sum_eq_single (⟨lab.toNat, h⟩ : Fin 91) (fun c _ hc => by rw [hne c hc, mul_zero])
      (fun hn => absurd (Finset.mem_univ _) hn),
    Finset.sum_eq_single (⟨lab.toNat, h⟩ : Fin 91) (fun c _ hc => by rw [hne c hc, mul_zero])
      (fun hn => absurd (Finset.mem_univ _) hn),
    hL, mul_one, mul_one, c0_eq, zero_add, zero_add, hr, ← EReal.coe_sub, sub_self, EReal.coe_zero, add_zero]

/-! ## Grouping, argument order, and the sign -/

theorem l1_eq (p q : Fin 4 → EReal) : l1K p q = l1R p q := by
  unfold l1K l1R
  rw [c0_eq, zero_add, Fin.sum_univ_four]

theorem giou_eq (p q : Fin 4 → EReal) : giouK p q = giouR p q := by
  unfold giouK giouR
  have : (fun x : EReal => max x c0) = (fun x : EReal => max c0 x) := funext fun x => max_comm _ _
  rw [this]

theorem total_eq (a b g : EReal) : totalK a b g = totalR a b g := by
  unfold totalK totalR
  rw [c0_eq, zero_sub]

end Cert.CostLaws

end
-- ==== Proof.PreFacts.lean ====
/-
  What the precondition says, element by element.

  The predicate is a conjunction of five `all`s: |x| < +∞ over each of the three float inputs, label ≥ 0 and
  label < 91 over the labels. An extended real whose absolute value is below +∞ is a real number; a 32-bit word
  that is ≥ 0 and < 91 as a signed number is below 91 as an unsigned one. Used downstream: the logits are reals
  and every label indexes the class axis.
-/
import proofs.«412822_j86912958202054_2_alg».proof.Proof.Gen.Pre_finite_inputs
import Idealize.ShloMosaic.Lib.ReduceAll
import Idealize.ShloMosaic.Lib.ValueIdx
import Idealize.ShloMosaic.PureOps.Ideal

noncomputable section

namespace Cert.PreFacts

open Idealize.ShloMosaic Cert.Pre_finite_inputs

instance : Subsingleton S_.Idx := ⟨fun _ _ => funext fun d => d.elim0⟩

theorem and_one : ∀ a b : BitVec 1, IntOp.andi a b = 1#1 ↔ a = 1#1 ∧ b = 1#1 := by decide

theorem ofBool_one (b : Bool) : BitVec.ofBool b = 1#1 ↔ b = true := by cases b <;> decide

/-- The word 0x7F800000 is +∞. -/
theorem inf_eq : Ideal.ofBits .f32 0x7F800000#32 = (⊤ : EReal) := by simp [Ideal.ofBits, Ideal.ieee]

/-- |x| < +∞ makes x a real number: at ±∞ the maximum of x and −x is +∞. -/
theorem real_of_abs_lt (x : EReal) (h : Ideal.cmp .olt (max x (-x)) (Ideal.ofBits .f32 0x7F800000#32) = 1#1) :
    ∃ r : ℝ, x = (r : EReal) := by
  rw [inf_eq] at h
  unfold Ideal.cmp at h
  rw [ofBool_one] at h
  simp only [decide_eq_true_eq] at h
  induction x using EReal.rec with
  | bot => simp at h
  | coe r => exact ⟨r, rfl⟩
  | top => simp at h

/-- A word that is ≥ 0 and < 91 read signed is below 91 read unsigned: a non-negative signed word is its
    unsigned reading. -/
theorem toNat_lt_91 (w : BitVec 32) (h0 : IntOp.cmpi .sge w 0#32 = 1#1) (h1 : IntOp.cmpi .slt w 91#32 = 1#1) :
    w.toNat < 91 := by
  unfold IntOp.cmpi at h0 h1
  rw [ofBool_one] at h0 h1
  simp only [BitVec.slt, BitVec.sle, decide_eq_true_eq] at h0 h1
  have hw := w.isLt
  have hi : w.toInt = if 2 * w.toNat < 2 ^ 32 then (w.toNat : Int) else (w.toNat : Int) - 2 ^ 32 :=
    BitVec.toInt_eq_toNat_cond w
  have z : (0#32 : BitVec 32).toInt = 0 := by decide
  have n91 : (91#32 : BitVec 32).toInt = 91 := by decide
  rw [z] at h0
  rw [n91] at h1
  split_ifs at hi <;> omega

/-- The precondition, decoded: every logit is a real, every label is below 91. -/
theorem decode (x0 : FVec Ideal S128x900x91 .f32) (x1 : FVec Ideal S128x900x4 .f32) (x2 : IVec S128x100 32)
    (x3 : FVec Ideal S128x100x4 .f32) (h : fn (F := Ideal) x0 x1 x2 x3 = fun _ => 1#1) :
    (∀ i, ∃ r : ℝ, x0 i = (r : EReal)) ∧ (∀ j, (x2 j).toNat < 91) := by
  have e := congrFun h ValueIdx.ix0
  dsimp only [fn, fn_part1] at e
  simp only [andi, and_one] at e
  obtain ⟨⟨⟨⟨h3, -⟩, -⟩, h16⟩, h20⟩ := e
  refine ⟨fun i => ?_, fun j => ?_⟩
  · exact real_of_abs_lt (x0 i) (Host.reduce_andi_all _ _ _ _ _ h3 i)
  · exact toNat_lt_91 (x2 j) (Host.reduce_andi_all _ _ _ _ _ h16 j) (Host.reduce_andi_all _ _ _ _ _ h20 j)

end Cert.PreFacts

end
-- ==== Proof.KernelCls.lean ====
/-
  The kernel's class-cost term at an index of its block.

  For one block of four batch entries the body forms the focal cost of every logit, an indicator array
  (class c against label (b, m)), and two batched matrix products over the class axis with that array: of the
  cost, and of the cost minus itself. Read at (b, n, m) the sum of the two products is the pick of row (b, n)
  of the cost array by label (b, m).
-/
import proofs.«412822_j86912958202054_2_alg».proof.Proof.Gen.KernelIdeal.Skeleton
import proofs.«412822_j86912958202054_2_alg».proof.Proof.CostSpec
import Idealize.ShloMosaic.Lib.ValueIdx
import Idealize.ShloMosaic.Lib.Pipeline.Value
import Idealize.ShloMosaic.PureOps.Ideal.Laws

noncomputable section

namespace Cert.KernelAt

open Idealize.ShloMosaic Idealize.ShloMosaic.ValueIdx Cert.KernelIdeal Cert.KernelIdeal.Gen Cert.CostSpec
open scoped BigOperators

/-! ## The batched product's operand indices

The record contracts axis 2 of the left operand with axis 1 of the right one and carries axis 0 of both as a
batch axis; the result's axes are (batch, left row, right column). At the result index (b, n, m) and the
contraction position c the left operand is read at (b, n, c) and the right one at (b, c, m). Each coordinate
is stated on its own: the batch and free axes compute, the contracted axis is the position's one coordinate. -/

/-- Left operand, batch axis: the result's batch coordinate. -/
theorem lhs_axis0 (b : Fin 4) (n : Fin 900) (m : Fin 100)
    (k : dot_S4x900x91_S4x91x100_S4x900x100_2_1_1_2_0_0.contr.Idx) :
    (dot_S4x900x91_S4x91x100_S4x900x100_2_1_1_2_0_0.lhsIdx (ix3 b n m) k ⟨0, by decide⟩).val = b.val := rfl

/-- Left operand, free axis: the result's row coordinate. -/
theorem lhs_axis1 (b : Fin 4) (n : Fin 900) (m : Fin 100)
    (k : dot_S4x900x91_S4x91x100_S4x900x100_2_1_1_2_0_0.contr.Idx) :
    (dot_S4x900x91_S4x91x100_S4x900x100_2_1_1_2_0_0.lhsIdx (ix3 b n m) k ⟨1, by decide⟩).val = n.val := rfl

/-- Left operand, contracted axis: the contraction position. -/
theorem lhs_axis2 (b : Fin 4) (n : Fin 900) (m : Fin 100) (c : Fin 91) :
    (dot_S4x900x91_S4x91x100_S4x900x100_2_1_1_2_0_0.lhsIdx (ix3 b n m)
      ((contrEquiv1 dot_S4x900x91_S4x91x100_S4x900x100_2_1_1_2_0_0 91 rfl rfl).symm c) ⟨2, by decide⟩).val = c.val :=
  (dot_S4x900x91_S4x91x100_S4x900x100_2_1_1_2_0_0.lhsIdx_val_of_single (cl := ⟨2, by decide⟩) rfl (ix3 b n m) _).trans
    (contrEquiv1_symm_val dot_S4x900x91_S4x91x100_S4x900x100_2_1_1_2_0_0 91 rfl rfl c)

/-- Right operand, batch axis: the result's batch coordinate. -/
theorem rhs_axis0 (b : Fin 4) (n : Fin 900) (m : Fin 100)
    (k : dot_S4x900x91_S4x91x100_S4x900x100_2_1_1_2_0_0.contr.Idx) :
    (dot_S4x900x91_S4x91x100_S4x900x100_2_1_1_2_0_0.rhsIdx (ix3 b n m) k ⟨0, by decide⟩).val = b.val := rfl

/-- Right operand, contracted axis: the contraction position. -/
theorem rhs_axis1 (b : Fin 4) (n : Fin 900) (m : Fin 100) (c : Fin 91) :
    (dot_S4x900x91_S4x91x100_S4x900x100_2_1_1_2_0_0.rhsIdx (ix3 b n m)
      ((contrEquiv1 dot_S4x900x91_S4x91x100_S4x900x100_2_1_1_2_0_0 91 rfl rfl).symm c) ⟨1, by decide⟩).val = c.val :=
  (dot_S4x900x91_S4x91x100_S4x900x100_2_1_1_2_0_0.rhsIdx_val_of_single (cr := ⟨1, by decide⟩) rfl (ix3 b n m) _).trans
    (contrEquiv1_symm_val dot_S4x900x91_S4x91x100_S4x900x100_2_1_1_2_0_0 91 rfl rfl c)

/-- Right operand, free axis: the result's column coordinate. -/
theorem rhs_axis2 (b : Fin 4) (n : Fin 900) (m : Fin 100)
    (k : dot_S4x900x91_S4x91x100_S4x900x100_2_1_1_2_0_0.contr.Idx) :
    (dot_S4x900x91_S4x91x100_S4x900x100_2_1_1_2_0_0.rhsIdx (ix3 b n m) k ⟨2, by decide⟩).val = m.val := rfl

/-- The left operand's index at (b, n, m) and position c is (b, n, c). -/
theorem lhs_at (b : Fin 4) (n : Fin 900) (m : Fin 100) (c : Fin 91) :
    dot_S4x900x91_S4x91x100_S4x900x100_2_1_1_2_0_0.lhsIdx (ix3 b n m)
      ((contrEquiv1 dot_S4x900x91_S4x91x100_S4x900x100_2_1_1_2_0_0 91 rfl rfl).symm c) = ix3 b n c := by
  funext a
  apply Fin.ext
  match a with
  | ⟨0, _⟩ => exact lhs_axis0 b n m _
  | ⟨1, _⟩ => exact lhs_axis1 b n m _
  | ⟨2, _⟩ => exact lhs_axis2 b n m c

/-- The right operand's index at (b, n, m) and position c is (b, c, m). -/
theorem rhs_at (b : Fin 4) (n : Fin 900) (m : Fin 100) (c : Fin 91) :
    dot_S4x900x91_S4x91x100_S4x900x100_2_1_1_2_0_0.rhsIdx (ix3 b n m)
      ((contrEquiv1 dot_S4x900x91_S4x91x100_S4x900x100_2_1_1_2_0_0 91 rfl rfl).symm c) = ix3 b c m := by
  funext a
  apply Fin.ext
  match a with
  | ⟨0, _⟩ => exact rhs_axis0 b n m _
  | ⟨1, _⟩ => exact rhs_axis1 b n m c
  | ⟨2, _⟩ => exact rhs_axis2 b n m _

/-- The batched product read at (b, n, m): the accumulator there plus the sum over the 91 classes of the
    products of the left entry (b, n, c) and the right entry (b, c, m). -/
theorem stack_matmul_apply {φ₁ φ₂ : FTy} (prec : Option ContractPrecision) (A : FVec Ideal S4x900x91 φ₁)
    (B : FVec Ideal S4x91x100 φ₂) (acc : FVec Ideal S4x900x100 .f32) (b : Fin 4) (n : Fin 900) (m : Fin 100) :
    matmul dot_S4x900x91_S4x91x100_S4x900x100_2_1_1_2_0_0 prec A B acc (ix3 b n m)
      = acc (ix3 b n m) + ∑ c : Fin 91, A (ix3 b n c) * B (ix3 b c m) := by
  show FloatOps.matmul dot_S4x900x91_S4x91x100_S4x900x100_2_1_1_2_0_0 prec A B acc (ix3 b n m) = _
  rw [Ideal.matmul_apply,
    ← Equiv.sum_comp (contrEquiv1 dot_S4x900x91_S4x91x100_S4x900x100_2_1_1_2_0_0 91 rfl rfl).symm]
  refine congrArg (acc (ix3 b n m) + ·) (Finset.sum_congr rfl fun c _ => ?_)
  rw [lhs_at, rhs_at]

/-! ## The indicator array -/

/-- The indicator array at (b, c, m): the class counter along axis 1 reads c, the labels block spread along
    axis 1 reads label (b, m); their comparison's bit, widened and converted, is the indicator of the two. -/
theorem indicator_apply (x3 : Vec Ideal S4x1x100 .i32) (h1 : S1x91x1.Iotas .tc 32 [1])
    (h2 : S1x91x1.Broadcasts S4x91x100) (h3 : S4x1x100.ShapeCasts S4x1x100) (h4 : S4x1x100.Broadcasts S4x91x100)
    (h5 : 1 < 32) (b : Fin 4) (c : Fin 91) (m : Fin 100) :
    (sitofp (F := Ideal) .f32
        (extui 32
          (cmpi .eq (broadcastTo S4x91x100 (iota .tc S1x91x1 32 [1] h1) h2)
            (broadcastTo S4x91x100 (shapeCast (α := BitVec 32) S4x1x100 x3 h3) h4)) h5)) (ix3 b c m)
      = oneHot c (x3 (ix3 b 0 m)) := by
  have e1 : broadcastTo S4x91x100 (iota .tc S1x91x1 32 [1] h1) h2 (ix3 b c m) = BitVec.ofNat 32 c.val := by
    rw [broadcastTo_apply _ h2 (ix3 b c m) (ix3 0 c 0) (fun a => by
      match a with
      | ⟨0, _⟩ => rfl
      | ⟨1, _⟩ => rfl
      | ⟨2, _⟩ => rfl), iota_single_apply]
  have e2 : broadcastTo S4x91x100 (shapeCast (α := BitVec 32) S4x1x100 x3 h3) h4 (ix3 b c m) = x3 (ix3 b 0 m) := by
    rw [shapeCast_self]
    exact broadcastTo_apply _ h4 (ix3 b c m) (ix3 b 0 m) (fun a => by
      match a with
      | ⟨0, _⟩ => rfl
      | ⟨1, _⟩ => rfl
      | ⟨2, _⟩ => rfl)
  show FloatOps.sitofp (F := Ideal) .f32
      ((IntOp.cmpi .eq (broadcastTo S4x91x100 (iota .tc S1x91x1 32 [1] h1) h2 (ix3 b c m))
        (broadcastTo S4x91x100 (shapeCast (α := BitVec 32) S4x1x100 x3 h3) h4 (ix3 b c m))).setWidth 32) = _
  rw [e1, e2]
  rfl

/-! ## The class term -/

/-- The class term of the block at (b, n, m): the pick, by label (b, m), of the focal costs of row (b, n). -/
theorem cls_blk (x0 : Vec Ideal S4x900x91 .f32) (x3 : Vec Ideal S4x1x100 .i32) (b : Fin 4) (n : Fin 900) (m : Fin 100) :
    k0_pay2 (F := Ideal) x0 x3 (ix3 b n m) = pickK (fun c => focalK (x0 (ix3 b n c))) (x3 (ix3 b 0 m)) := by
  unfold k0_pay2
  -- each product read at (b, n, m): its zero accumulator plus the sum over the classes; the narrowing of an
  -- operand changes no entry
  simp only [addf_apply, stack_matmul_apply, truncf_apply, constant_apply]
  unfold pickK
  -- term by term: the left factor is the focal cost of the logit (b, n, c), every operation on it elementwise,
  -- and the right factor is the indicator of class c against label (b, m)
  refine congrArg₂ (· + ·) (congrArg (c0 + ·) (Finset.sum_congr rfl fun c _ => ?_))
    (congrArg (c0 + ·) (Finset.sum_congr rfl fun c _ => ?_))
  · exact congrArg₂ (· * ·) rfl (indicator_apply x3 _ _ _ _ _ b c m)
  · exact congrArg₂ (· * ·) rfl (indicator_apply x3 _ _ _ _ _ b c m)

end Cert.KernelAt

end
-- ==== Proof.KernelBox.lean ====
/-
  The kernel's two box terms at an index of its block.

  The body slices the predicted boxes (b, n, ·) into four columns and the transposed target boxes (b, ·, m)
  into four rows, broadcasts columns along m and rows along n, and combines them pointwise. Read at
  (b, n, m) the L1 term and the GIoU term are the scalar functions of the two boxes.
-/
import proofs.«412822_j86912958202054_2_alg».proof.Proof.Gen.KernelIdeal.Skeleton
import proofs.«412822_j86912958202054_2_alg».proof.Proof.CostSpec
import Idealize.ShloMosaic.Lib.ValueIdx
import Idealize.ShloMosaic.Lib.Pipeline.Value

noncomputable section

namespace Cert.KernelAt

open Idealize.ShloMosaic Idealize.ShloMosaic.ValueIdx Cert.KernelIdeal Cert.KernelIdeal.Gen Cert.CostSpec

/-! ## Layout operations read at coordinates -/

/-- A column (b, n, 0) spread along the last axis reads, at (b, n, m), the column's entry at (b, n). -/
theorem bcast_col (v : FVec Ideal S4x900x1 .f32) (h : S4x900x1.Broadcasts S4x900x100) (b : Fin 4) (n : Fin 900) (m : Fin 100) :
    broadcastTo S4x900x100 v h (ix3 b n m) = v (ix3 b n 0) :=
  broadcastTo_apply v h (ix3 b n m) (ix3 b n 0) fun a =>
    match a with
    | ⟨0, _⟩ => rfl
    | ⟨1, _⟩ => rfl
    | ⟨2, _⟩ => rfl

/-- A row (b, 0, m) spread along the middle axis reads, at (b, n, m), the row's entry at (b, m). -/
theorem bcast_row (v : FVec Ideal S4x1x100 .f32) (h : S4x1x100.Broadcasts S4x900x100) (b : Fin 4) (n : Fin 900) (m : Fin 100) :
    broadcastTo S4x900x100 v h (ix3 b n m) = v (ix3 b 0 m) :=
  broadcastTo_apply v h (ix3 b n m) (ix3 b 0 m) fun a =>
    match a with
    | ⟨0, _⟩ => rfl
    | ⟨1, _⟩ => rfl
    | ⟨2, _⟩ => rfl

/-- Column k of the predicted boxes, read at (b, n, 0), is the box coordinate (b, n, k). -/
theorem slice_col (x : Vec Ideal S4x900x4 .f32) (k : Fin 4) (h : S4x900x4.Slices ![0, 0, k.val] S4x900x1) (b : Fin 4) (n : Fin 900) :
    extractStridedSlice S4x900x1 ![0, 0, k.val] x h (ix3 b n 0) = x (ix3 b n k) :=
  extractStridedSlice_apply ![0, 0, k.val] x h (ix3 b n 0) (ix3 b n k) fun a =>
    match a with
    | ⟨0, _⟩ => (Nat.zero_add _).symm
    | ⟨1, _⟩ => (Nat.zero_add _).symm
    | ⟨2, _⟩ => (Nat.add_zero _).symm

/-- Row k of the transposed target boxes, read at (b, 0, m), is the box coordinate (b, k, m). -/
theorem slice_row (y : FVec Ideal S4x4x100 .f32) (k : Fin 4) (h : S4x4x100.Slices ![0, k.val, 0] S4x1x100) (b : Fin 4) (m : Fin 100) :
    extractStridedSlice S4x1x100 ![0, k.val, 0] y h (ix3 b 0 m) = y (ix3 b k m) :=
  extractStridedSlice_apply ![0, k.val, 0] y h (ix3 b 0 m) (ix3 b k m) fun a =>
    match a with
    | ⟨0, _⟩ => (Nat.zero_add _).symm
    | ⟨1, _⟩ => (Nat.add_zero _).symm
    | ⟨2, _⟩ => (Nat.zero_add _).symm

/-- An absolute value at an index is the larger of the entry and its negation. -/
theorem absf_at {s : Shape} (a : FVec Ideal s .f32) (i : s.Idx) : absf a i = absE (a i) := rfl

/-! ## The columns and rows the body cuts out -/

theorem pay3_at (x1 : Vec Ideal S4x900x4 .f32) (b : Fin 4) (n : Fin 900) : k0_pay3 (F := Ideal) x1 (ix3 b n 0) = x1 (ix3 b n 0) :=
  slice_col x1 0 slices_S4x900x4_o0_0_0_S4x900x1 b n
theorem pay4_at (x1 : Vec Ideal S4x900x4 .f32) (b : Fin 4) (n : Fin 900) : k0_pay4 (F := Ideal) x1 (ix3 b n 0) = x1 (ix3 b n 1) :=
  slice_col x1 1 slices_S4x900x4_o0_0_1_S4x900x1 b n
theorem pay5_at (x1 : Vec Ideal S4x900x4 .f32) (b : Fin 4) (n : Fin 900) : k0_pay5 (F := Ideal) x1 (ix3 b n 0) = x1 (ix3 b n 2) :=
  slice_col x1 2 slices_S4x900x4_o0_0_2_S4x900x1 b n
theorem pay6_at (x1 : Vec Ideal S4x900x4 .f32) (b : Fin 4) (n : Fin 900) : k0_pay6 (F := Ideal) x1 (ix3 b n 0) = x1 (ix3 b n 3) :=
  slice_col x1 3 slices_S4x900x4_o0_0_3_S4x900x1 b n

theorem pay12_eq (x2 : Vec Ideal S4x4x100 .f32) : k0_pay12 (F := Ideal) x2 = x2 := shapeCast_self x2 shapeCasts_S4x4x100_S4x4x100

theorem pay13_at (x2 : Vec Ideal S4x4x100 .f32) (b : Fin 4) (m : Fin 100) : k0_pay13 (F := Ideal) x2 (ix3 b 0 m) = x2 (ix3 b 0 m) :=
  (slice_row (k0_pay12 x2) 0 slices_S4x4x100_o0_0_0_S4x1x100 b m).trans (congrFun (pay12_eq x2) (ix3 b 0 m))
theorem pay14_at (x2 : Vec Ideal S4x4x100 .f32) (b : Fin 4) (m : Fin 100) : k0_pay14 (F := Ideal) x2 (ix3 b 0 m) = x2 (ix3 b 1 m) :=
  (slice_row (k0_pay12 x2) 1 slices_S4x4x100_o0_1_0_S4x1x100 b m).trans (congrFun (pay12_eq x2) (ix3 b 1 m))
theorem pay15_at (x2 : Vec Ideal S4x4x100 .f32) (b : Fin 4) (m : Fin 100) : k0_pay15 (F := Ideal) x2 (ix3 b 0 m) = x2 (ix3 b 2 m) :=
  (slice_row (k0_pay12 x2) 2 slices_S4x4x100_o0_2_0_S4x1x100 b m).trans (congrFun (pay12_eq x2) (ix3 b 2 m))
theorem pay16_at (x2 : Vec Ideal S4x4x100 .f32) (b : Fin 4) (m : Fin 100) : k0_pay16 (F := Ideal) x2 (ix3 b 0 m) = x2 (ix3 b 3 m) :=
  (slice_row (k0_pay12 x2) 3 slices_S4x4x100_o0_3_0_S4x1x100 b m).trans (congrFun (pay12_eq x2) (ix3 b 3 m))

/-! ## The corners and the areas -/

/-- The left edge cx − ½ w of the predicted box. -/
theorem pay7_at (x1 : Vec Ideal S4x900x4 .f32) (b : Fin 4) (n : Fin 900) :
    k0_pay7 (F := Ideal) x1 (k0_pay3 x1) (ix3 b n 0) = x1 (ix3 b n 0) - cHalf * x1 (ix3 b n 2) := by
  simp only [k0_pay7, subf_apply, mulf_apply, broadcast_apply, pay3_at, pay5_at]
  rfl
/-- The top edge cy − ½ h of the predicted box. -/
theorem pay8_at (x1 : Vec Ideal S4x900x4 .f32) (b : Fin 4) (n : Fin 900) :
    k0_pay8 (F := Ideal) x1 (ix3 b n 0) = x1 (ix3 b n 1) - cHalf * x1 (ix3 b n 3) := by
  simp only [k0_pay8, subf_apply, mulf_apply, broadcast_apply, pay4_at, pay6_at]
  rfl
/-- The right edge cx + ½ w of the predicted box. -/
theorem pay9_at (x1 : Vec Ideal S4x900x4 .f32) (b : Fin 4) (n : Fin 900) :
    k0_pay9 (F := Ideal) x1 (k0_pay3 x1) (ix3 b n 0) = x1 (ix3 b n 0) + cHalf * x1 (ix3 b n 2) := by
  simp only [k0_pay9, addf_apply, mulf_apply, broadcast_apply, pay3_at, pay5_at]
  rfl
/-- The bottom edge cy + ½ h of the predicted box. -/
theorem pay10_at (x1 : Vec Ideal S4x900x4 .f32) (b : Fin 4) (n : Fin 900) :
    k0_pay10 (F := Ideal) x1 (ix3 b n 0) = x1 (ix3 b n 1) + cHalf * x1 (ix3 b n 3) := by
  simp only [k0_pay10, addf_apply, mulf_apply, broadcast_apply, pay4_at, pay6_at]
  rfl
/-- The predicted box's area, width times height from its edges. -/
theorem pay11_at (x1 : Vec Ideal S4x900x4 .f32) (b : Fin 4) (n : Fin 900) :
    k0_pay11 (F := Ideal) x1 (k0_pay3 x1) (ix3 b n 0)
      = ((x1 (ix3 b n 0) + cHalf * x1 (ix3 b n 2)) - (x1 (ix3 b n 0) - cHalf * x1 (ix3 b n 2)))
        * ((x1 (ix3 b n 1) + cHalf * x1 (ix3 b n 3)) - (x1 (ix3 b n 1) - cHalf * x1 (ix3 b n 3))) := by
  simp only [k0_pay11, subf_apply, mulf_apply, pay7_at, pay8_at, pay9_at, pay10_at]

/-- The left edge of the target box. -/
theorem pay17_at (x2 : Vec Ideal S4x4x100 .f32) (b : Fin 4) (m : Fin 100) :
    k0_pay17 (F := Ideal) x2 (ix3 b 0 m) = x2 (ix3 b 0 m) - cHalf * x2 (ix3 b 2 m) := by
  simp only [k0_pay17, subf_apply, mulf_apply, broadcast_apply, pay13_at, pay15_at]
  rfl
/-- The top edge of the target box. -/
theorem pay18_at (x2 : Vec Ideal S4x4x100 .f32) (b : Fin 4) (m : Fin 100) :
    k0_pay18 (F := Ideal) x2 (ix3 b 0 m) = x2 (ix3 b 1 m) - cHalf * x2 (ix3 b 3 m) := by
  simp only [k0_pay18, subf_apply, mulf_apply, broadcast_apply, pay14_at, pay16_at]
  rfl
/-- The right edge of the target box. -/
theorem pay19_at (x2 : Vec Ideal S4x4x100 .f32) (b : Fin 4) (m : Fin 100) :
    k0_pay19 (F := Ideal) x2 (ix3 b 0 m) = x2 (ix3 b 0 m) + cHalf * x2 (ix3 b 2 m) := by
  simp only [k0_pay19, addf_apply, mulf_apply, broadcast_apply, pay13_at, pay15_at]
  rfl
/-- The bottom edge of the target box. -/
theorem pay20_at (x2 : Vec Ideal S4x4x100 .f32) (b : Fin 4) (m : Fin 100) :
    k0_pay20 (F := Ideal) x2 (ix3 b 0 m) = x2 (ix3 b 1 m) + cHalf * x2 (ix3 b 3 m) := by
  simp only [k0_pay20, addf_apply, mulf_apply, broadcast_apply, pay14_at, pay16_at]
  rfl
/-- The target box's area. -/
theorem pay21_at (x2 : Vec Ideal S4x4x100 .f32) (b : Fin 4) (m : Fin 100) :
    k0_pay21 (F := Ideal) x2 (ix3 b 0 m)
      = ((x2 (ix3 b 0 m) + cHalf * x2 (ix3 b 2 m)) - (x2 (ix3 b 0 m) - cHalf * x2 (ix3 b 2 m)))
        * ((x2 (ix3 b 1 m) + cHalf * x2 (ix3 b 3 m)) - (x2 (ix3 b 1 m) - cHalf * x2 (ix3 b 3 m))) := by
  simp only [k0_pay21, subf_apply, mulf_apply, pay17_at, pay18_at, pay19_at, pay20_at]

/-! ## The two terms -/

/-- The L1 term of the block at (b, n, m). -/
theorem l1_blk (x1 : Vec Ideal S4x900x4 .f32) (x2 : Vec Ideal S4x4x100 .f32) (b : Fin 4) (n : Fin 900) (m : Fin 100) :
    k0_pay24 (F := Ideal) (k0_pay6 x1) (k0_pay15 x2) (k0_pay16 x2) (k0_pay22 x1 (k0_pay3 x1) x2) (k0_pay23 x1) (ix3 b n m)
      = l1K (fun k => x1 (ix3 b n k)) (fun k => x2 (ix3 b k m)) := by
  simp only [k0_pay24, k0_pay22, k0_pay23, addf_apply, subf_apply, absf_at, bcast_col, bcast_row,
    pay3_at, pay4_at, pay5_at, pay6_at, pay13_at, pay14_at, pay15_at, pay16_at]
  rfl

/-- The GIoU term of the block at (b, n, m). -/
theorem giou_blk (x1 : Vec Ideal S4x900x4 .f32) (x2 : Vec Ideal S4x4x100 .f32) (b : Fin 4) (n : Fin 900) (m : Fin 100) :
    k0_pay25 (F := Ideal) (k0_pay7 x1 (k0_pay3 x1)) (k0_pay8 x1) (k0_pay9 x1 (k0_pay3 x1)) (k0_pay10 x1) (k0_pay11 x1 (k0_pay3 x1))
        (k0_pay17 x2) (k0_pay18 x2) (k0_pay19 x2) (k0_pay20 x2) (k0_pay21 x2) (ix3 b n m)
      = giouK (fun k => x1 (ix3 b n k)) (fun k => x2 (ix3 b k m)) := by
  simp only [k0_pay25, addf_apply, subf_apply, mulf_apply, divf_apply, maximumf_apply, minimumf_apply, broadcast_apply,
    bcast_col, bcast_row, pay7_at, pay8_at, pay9_at, pay10_at, pay11_at, pay17_at, pay18_at, pay19_at, pay20_at, pay21_at]
  rfl

end Cert.KernelAt

end
-- ==== Proof.KernelWhole.lean ====
/-
  The kernel's result array as one function of the argument arrays.

  The grid has 32 points; point t stages rows 4t … 4t+3 of every array (all other axes whole) and writes back
  rows 4t … 4t+3 of the result. So an index (B, n, q) of the result lies in the block of point B / 4, at row
  B mod 4 of it, and every array is read at the same row B. Before the region the labels [128, 100] are
  reshaped to [128, 1, 100] and the target boxes [128, 100, 4] transposed to [128, 4, 100]; reading those at an
  index gives back the label (B, q) and the coordinate (B, q, k).
-/
import proofs.«412822_j86912958202054_2_alg».proof.Proof.Gen.KernelIdeal.Value
import proofs.«412822_j86912958202054_2_alg».proof.Proof.KernelCls
import proofs.«412822_j86912958202054_2_alg».proof.Proof.KernelBox
import proofs.«412822_j86912958202054_2_alg».proof.Proof.CostSpec
import Idealize.ShloMosaic.Lib.Pipeline.Value
import Idealize.ShloMosaic.Lib.ValueIdx
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.CostSpec
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl

/-- The cost array in the kernel's spelling, over the four arrays the region stages: logits, predicted boxes,
    transposed target boxes, reshaped labels. -/
def costK (a0 : Vec Ideal S128x900x91 .f32) (a1 : Vec Ideal S128x900x4 .f32) (a2 : Vec Ideal S128x4x100 .f32)
    (a3 : Vec Ideal S128x1x100 .i32) : Vec Ideal S128x900x100 .f32 :=
  fun i => totalK (pickK (fun c => focalK (a0 (ix3 (i 0) (i 1) c))) (a3 (ix3 (i 0) 0 (i 2))))
    (l1K (fun k => a1 (ix3 (i 0) (i 1) k)) (fun k => a2 (ix3 (i 0) k (i 2))))
    (giouK (fun k => a1 (ix3 (i 0) (i 1) k)) (fun k => a2 (ix3 (i 0) k (i 2))))

/-- The body's stored value at an index of the block: the total of the three terms. -/
theorem pay_at (x0 : Vec Ideal S4x900x91 .f32) (x1 : Vec Ideal S4x900x4 .f32) (x2 : Vec Ideal S4x4x100 .f32)
    (x3 : Vec Ideal S4x1x100 .i32) (b : Fin 4) (n : Fin 900) (q : Fin 100) :
    k0_pay1 (F := Ideal) (k0_pay2 x0 x3)
        (k0_pay24 (k0_pay6 x1) (k0_pay15 x2) (k0_pay16 x2) (k0_pay22 x1 (k0_pay3 x1) x2) (k0_pay23 x1))
        (k0_pay25 (k0_pay7 x1 (k0_pay3 x1)) (k0_pay8 x1) (k0_pay9 x1 (k0_pay3 x1)) (k0_pay10 x1) (k0_pay11 x1 (k0_pay3 x1))
          (k0_pay17 x2) (k0_pay18 x2) (k0_pay19 x2) (k0_pay20 x2) (k0_pay21 x2))
        (Scalar.ofBits .f32 0x00000000#32) (ix3 b n q)
      = totalK (pickK (fun c => focalK (x0 (ix3 b n c))) (x3 (ix3 b 0 q)))
          (l1K (fun k => x1 (ix3 b n k)) (fun k => x2 (ix3 b k q)))
          (giouK (fun k => x1 (ix3 b n k)) (fun k => x2 (ix3 b k q))) := by
  rw [← Cert.KernelAt.cls_blk x0 x3 b n q, ← Cert.KernelAt.l1_blk x1 x2 b n q, ← Cert.KernelAt.giou_blk x1 x2 b n q]
  rfl

/-- The printed index maps over the grid: every window's block index is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

theorem N32 : cfg0.N = 32 := by decide

/-- Row b of point t's block is row 4t + b of the array. -/
def row (t : Fin cfg0.N) (b : Fin 4) : Fin 128 := ⟨4 * t.val + b.val, by have := t.isLt; have := N32; have := b.isLt; omega⟩

theorem emb0 (t : Fin cfg0.N) (b : Fin 4) (n : Fin 900) (k : Fin 91) :
    ((cfg0.win 0).blk t).view.emb (ix3 b n k) = ix3 (row t b) n k := by
  obtain ⟨e0, e1, e2, -⟩ := idx_facts t
  funext a; apply Fin.ext
  match a with
  | ⟨0, _⟩ => show win0_0.index t (0 : Fin 3) * 4 + 1 * b.val = 4 * t.val + b.val; omega
  | ⟨1, _⟩ => show win0_0.index t (1 : Fin 3) * 900 + 1 * n.val = n.val; omega
  | ⟨2, _⟩ => show win0_0.index t (2 : Fin 3) * 91 + 1 * k.val = k.val; omega

theorem emb1 (t : Fin cfg0.N) (b : Fin 4) (n : Fin 900) (k : Fin 4) :
    ((cfg0.win 1).blk t).view.emb (ix3 b n k) = ix3 (row t b) n k := by
  obtain ⟨-, -, -, e0, e1, e2, -⟩ := idx_facts t
  funext a; apply Fin.ext
  match a with
  | ⟨0, _⟩ => show win0_1.index t (0 : Fin 3) * 4 + 1 * b.val = 4 * t.val + b.val; omega
  | ⟨1, _⟩ => show win0_1.index t (1 : Fin 3) * 900 + 1 * n.val = n.val; omega
  | ⟨2, _⟩ => show win0_1.index t (2 : Fin 3) * 4 + 1 * k.val = k.val; omega

theorem emb2 (t : Fin cfg0.N) (b : Fin 4) (k : Fin 4) (q : Fin 100) :
    ((cfg0.win 2).blk t).view.emb (ix3 b k q) = ix3 (row t b) k q := by
  obtain ⟨-, -, -, -, -, -, e0, e1, e2, -⟩ := idx_facts t
  funext a; apply Fin.ext
  match a with
  | ⟨0, _⟩ => show win0_2.index t (0 : Fin 3) * 4 + 1 * b.val = 4 * t.val + b.val; omega
  | ⟨1, _⟩ => show win0_2.index t (1 : Fin 3) * 4 + 1 * k.val = k.val; omega
  | ⟨2, _⟩ => show win0_2.index t (2 : Fin 3) * 100 + 1 * q.val = q.val; omega

theorem emb3 (t : Fin cfg0.N) (b : Fin 4) (z : Fin 1) (q : Fin 100) :
    ((cfg0.win 3).blk t).view.emb (ix3 b z q) = ix3 (row t b) z q := by
  obtain ⟨-, -, -, -, -, -, -, -, -, e0, e1, e2, -⟩ := idx_facts t
  funext a; apply Fin.ext
  match a with
  | ⟨0, _⟩ => show win0_3.index t (0 : Fin 3) * 4 + 1 * b.val = 4 * t.val + b.val; omega
  | ⟨1, _⟩ => show win0_3.index t (1 : Fin 3) * 1 + 1 * z.val = z.val; omega
  | ⟨2, _⟩ => show win0_3.index t (2 : Fin 3) * 100 + 1 * q.val = q.val; omega

theorem emb4 (t : Fin cfg0.N) (b : Fin 4) (n : Fin 900) (q : Fin 100) :
    ((cfg0.win 4).blk t).view.emb (ix3 b n q) = ix3 (row t b) n q := by
  obtain ⟨-, -, -, -, -, -, -, -, -, -, -, -, e0, e1, e2⟩ := idx_facts t
  funext a; apply Fin.ext
  match a with
  | ⟨0, _⟩ => show win0_4.index t (0 : Fin 3) * 4 + 1 * b.val = 4 * t.val + b.val; omega
  | ⟨1, _⟩ => show win0_4.index t (1 : Fin 3) * 900 + 1 * n.val = n.val; omega
  | ⟨2, _⟩ => show win0_4.index t (2 : Fin 3) * 100 + 1 * q.val = q.val; omega

/-- What point t writes back is block t of the cost array over the arrays as the region finds them. -/
theorem flushed_eq (c : Dev nD) (t : Fin cfg0.N) :
    (dats m 0 c).flushed 4 t = ((cfg0.win 4).blk t).view.read (Elt Ideal)
      (costK (V m c main_arg0) (V m c main_arg1) (V m c main_v1) (V m c main_v0)) := by
  rw [Value.flushed4]
  unfold out0_4
  rw [View.canon_unit_zero zero3]
  simp only [View.ld_unit_zero (S := S4x900x91) zero3, View.ld_unit_zero (S := S4x900x4) zero3,
    View.ld_unit_zero (S := S4x4x100) zero3, View.ld_unit_zero (S := S4x1x100) zero3]
  funext j
  obtain ⟨b, n, q, rfl⟩ : ∃ (b : Fin 4) (n : Fin 900) (q : Fin 100), j = ix3 b n q := ⟨j 0, j 1, j 2, eq_ix3 j⟩
  refine (pay_at (iblk m c 0 t) (iblk m c 1 t) (iblk m c 2 t) (iblk m c 3 t) b n q).trans ?_
  show _ = costK (V m c main_arg0) (V m c main_arg1) (V m c main_v1) (V m c main_v0) (((cfg0.win 4).blk t).view.emb (ix3 b n q))
  rw [emb4]
  have r0 : ∀ k : Fin 91, iblk m c 0 t (ix3 b n k) = V m c main_arg0 (ix3 (row t b) n k) := fun k =>
    congrArg (V m c main_arg0) (emb0 t b n k)
  have r1 : ∀ k : Fin 4, iblk m c 1 t (ix3 b n k) = V m c main_arg1 (ix3 (row t b) n k) := fun k =>
    congrArg (V m c main_arg1) (emb1 t b n k)
  have r2 : ∀ k : Fin 4, iblk m c 2 t (ix3 b k q) = V m c main_v1 (ix3 (row t b) k q) := fun k =>
    congrArg (V m c main_v1) (emb2 t b k q)
  have r3 : iblk m c 3 t (ix3 b 0 q) = V m c main_v0 (ix3 (row t b) 0 q) :=
    congrArg (V m c main_v0) (emb3 t b 0 q)
  simp only [r0, r1, r2, r3]
  rfl

/-- An index of the result is in point t's block iff each coordinate is in the block's range. -/
theorem mem_blk4 (t : Fin cfg0.N) (i : S128x900x100.Idx) :
    i ∈ ((cfg0.win 4).blk t).view.set ↔ ∀ a : Fin 3, win0_4.index t a * S4x900x100.size a ≤ (i a).val
      ∧ (i a).val < win0_4.index t a * S4x900x100.size a + S4x900x100.size a := by
  show i ∈ ((View.whole main_v2).slice (win0_4.rect t)).set ↔ _
  rw [View.set_slice_whole, Rect.mem_set_unit]
  exact Iff.rfl

/-- Every index of the result is in the block of the point its row divided by four names. -/
theorem cover4 (i : S128x900x100.Idx) :
    ∃ t : Fin cfg0.N, (cfg0.win 4).flush t = true ∧ i ∈ ((cfg0.win 4).blk t).view.set := by
  have h0 : (i 0).val < 128 := (i 0).isLt
  have h1 : (i 1).val < 900 := (i 1).isLt
  have h2 : (i 2).val < 100 := (i 2).isLt
  have hN := N32
  let t : Fin cfg0.N := ⟨(i 0).val / 4, by omega⟩
  obtain ⟨-, -, -, -, -, -, -, -, -, -, -, -, e0, e1, e2⟩ := idx_facts t
  have ht : t.val = (i 0).val / 4 := rfl
  refine ⟨t, flush0_4 t, ?_⟩
  rw [mem_blk4]
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 900 ≤ (i 1).val ∧ (i 1).val < win0_4.index t (1 : Fin 3) * 900 + 900; omega
  | ⟨2, _⟩ => show win0_4.index t (2 : Fin 3) * 100 ≤ (i 2).val ∧ (i 2).val < win0_4.index t (2 : Fin 3) * 100 + 100; omega

/-- The result array after the run: the cost array over the arrays as the region finds them. -/
theorem final (c : Dev nD) :
    (dats m 0 c).arrAt 4 cfg0.N = costK (V m c main_arg0) (V m c main_arg1) (V m c main_v1) (V m c main_v0) :=
  (dats m 0 c).arrAt_eq_of_cover 4 _ (fun t _ => flushed_eq m c t) cover4

end Cert.KernelIdeal.Whole

end
-- ==== Proof.KernelHost.lean ====
/-
  The two arrays @main prepares before the region, read at an index.

  The labels [128, 100] are reshaped to [128, 1, 100]: entry (B, 0, q) is label (B, q). The target boxes
  [128, 100, 4] are transposed to [128, 4, 100]: entry (B, k, q) is coordinate k of box (B, q).
-/
import proofs.«412822_j86912958202054_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The transposed target boxes as the region finds them, at (B, k, q): coordinate k of target box (B, q). -/
theorem v1_at (c : Dev nD) (B : Fin 128) (k : Fin 4) (q : Fin 100) :
    V m c main_v1 (ix3 B k q) = m ((c : Thread nD τ).loc main_arg3) (ix3 B q k) := by
  -- the array after the two operations is the transpose, by the permutation (0, 2, 1), of the boxes as launched:
  -- the second operation writes it from an argument the first does not write
  have e : (V m c main_v1 : S128x4x100.Idx → EReal)
      = transpose S128x4x100 [0, 2, 1] (m ((c : Thread nD τ).loc main_arg3)) transposes_S128x100x4_S128x4x100_0_2_1 := by
    dsimp only [V, hostOps0]
    after_results
  refine (congrFun e (ix3 B k q)).trans ?_
  -- result axes (0, 1, 2) read source axes (0, 2, 1): (B, k, q) reads (B, q, k)
  exact transpose_apply [0, 2, 1] _ transposes_S128x100x4_S128x4x100_0_2_1 (ix3 B k q) (ix3 B q k) (fun a => by
    match a with
    | ⟨0, _⟩ => rfl
    | ⟨1, _⟩ => rfl
    | ⟨2, _⟩ => rfl)

/-- The reshaped labels as the region finds them, at (B, 0, q): label (B, q). -/
theorem v0_at (c : Dev nD) (B : Fin 128) (q : Fin 100) :
    V m c main_v0 (ix3 B 0 q) = m ((c : Thread nD τ).loc main_arg2) (ix2 B q) := by
  -- the array after the two operations is the labels as launched, recast to [128, 1, 100]: the first operation
  -- writes it and the second leaves it
  have e : (V m c main_v0 : S128x1x100.Idx → BitVec 32)
      = shapeCast S128x1x100 (m ((c : Thread nD τ).loc main_arg2)) shapeCasts_S128x100_S128x1x100 := by
    dsimp only [V, hostOps0]
    after_results
    rfl
  refine (congrFun e (ix3 B 0 q)).trans ?_
  -- (B, 0, q) of [128, 1, 100] and (B, q) of [128, 100] have one row-major position
  exact shapeCast_apply _ shapeCasts_S128x100_S128x1x100 (ix3 B 0 q) (ix2 B q) (by
    rw [Shape.rowMajor_val_three, Shape.rowMajor_val_two]
    show B.val * 100 + q.val = (B.val * 1 + 0) * 100 + q.val
    omega)

end Cert.KernelIdeal.Whole

end
-- ==== Proof.RefCls.lean ====
/-
  The reference's class-cost stage at an index.

  The class cost is take_along_axis of the focal-cost array by the labels: a negative label is shifted by
  91, the shifted label is tested against [0, 90], the row is gathered, and the test selects between the
  gathered value and a fill. With the label in [0, 91) nothing is shifted, the test holds, and the stage is
  the focal cost at the label.
-/
import proofs.«412822_j86912958202054_2_alg».proof.Proof.RefRead
import proofs.«412822_j86912958202054_2_alg».proof.Proof.CostSpec
import Idealize.ShloMosaic.Lib.ValueIdx
import Idealize.ShloMosaic.Lib.Pipeline.Value
import Idealize.ShloMosaic.PureOps.Ideal.Laws
import Idealize.ShloMosaic.PureOps.Reduce

noncomputable section

namespace Cert.RefAt

open Idealize.ShloMosaic Idealize.ShloMosaic.ValueIdx Cert.ReferenceIdeal Cert.ReferenceIdeal.Read Cert.CostSpec
open scoped BigOperators

/-! ## A label word in [0, 91): its signed reading and the three comparisons -/

/-- A word below 91 read signed is itself. -/
theorem toInt_of_lt (w : BitVec 32) (h : w.toNat < 91) : w.toInt = (w.toNat : Int) := by
  rw [BitVec.toInt_eq_toNat_cond, if_pos (by omega)]

/-- Such a word is not negative … -/
theorem slt_zero (w : BitVec 32) (h : w.toNat < 91) : IntOp.cmpi .slt w 0#32 = 0#1 := by
  have hf : w.slt 0#32 = false := by
    unfold BitVec.slt
    rw [decide_eq_false_iff_not, toInt_of_lt w h]
    have h0 : (0#32 : BitVec 32).toInt = 0 := rfl
    rw [h0]; omega
  show BitVec.ofBool (w.slt 0#32) = 0#1
  rw [hf]; rfl

/-- … it is at least 0 … -/
theorem sge_zero (w : BitVec 32) (h : w.toNat < 91) : IntOp.cmpi .sge w 0#32 = 1#1 := by
  have ht : (0#32 : BitVec 32).sle w = true := by
    unfold BitVec.sle
    rw [decide_eq_true_eq, toInt_of_lt w h]
    have h0 : (0#32 : BitVec 32).toInt = 0 := rfl
    rw [h0]; omega
  show BitVec.ofBool ((0#32 : BitVec 32).sle w) = 1#1
  rw [ht]; rfl

/-- … and at most 90. -/
theorem sle_ninety (w : BitVec 32) (h : w.toNat < 91) : IntOp.cmpi .sle w 90#32 = 1#1 := by
  have ht : w.sle 90#32 = true := by
    unfold BitVec.sle
    rw [decide_eq_true_eq, toInt_of_lt w h]
    have h0 : (90#32 : BitVec 32).toInt = 90 := rfl
    rw [h0]; omega
  show BitVec.ofBool (w.sle 90#32) = 1#1
  rw [ht]; rfl

/-! ## The focal cost of every logit -/

/-- Operations 0 to 28 at an index: the sigmoid as 1 / (1 + e^(−x)), its two powers, the two negated logarithms,
    and the difference of the two weighted products. -/
theorem focal_at (x0 : (⟨S128x900x91, .f32⟩ : BufTy).Contents (Elt Ideal)) (i : S128x900x91.Idx) :
    val_main_v28 (F := Ideal) x0 i = focalR (x0 i) := by
  simp only [val_main_v28_apply, val_main_v27_apply, val_main_v26_apply, val_main_v25_apply, val_main_v24_apply,
    val_main_v23_apply, val_main_v22_apply, val_main_v21_apply, val_main_v20_apply, val_main_v19_apply,
    val_main_v18_apply, val_main_v17_apply, val_main_v16_apply, val_main_v15_apply, val_main_v14_apply,
    val_main_v13_apply, val_main_v12_apply, val_main_v11_apply, val_main_v10_apply, val_main_v9_apply,
    val_main_v8_apply, val_main_v7_apply, val_main_v6_apply, val_main_v5_apply, val_main_v4_apply,
    val_main_v3_apply, val_main_v2_apply, val_main_v1_apply, val_main_v0_apply, val_main_cst_apply,
    val_main_cst_0_apply, val_main_cst_1_apply, val_main_cst_2_apply, val_main_cst_3_apply, val_main_cst_4_apply,
    val_main_cst_5_apply, val_main_cst_6_apply, val_main_cst_7_apply, val_main_cst_8_apply]
  rfl

/-! ## A reduction by "and" over an axis of extent one -/

/-- A left fold by "and" from 1 over words that are all 1 is 1. -/
theorem foldl_andi_one {ι : Type} (f : ι → BitVec 1) :
    ∀ l : List ι, (∀ a ∈ l, f a = 1#1) → l.foldl (fun r a => IntOp.andi r (f a)) 1#1 = 1#1
  | [], _ => rfl
  | a :: l, h => by
    have e : IntOp.andi (1#1 : BitVec 1) 1#1 = 1#1 := by decide
    rw [List.foldl_cons, h a List.mem_cons_self, e]
    exact foldl_andi_one f l fun b hb => h b (List.mem_cons_of_mem a hb)

/-- The reduce over the last axis, of extent one, of a [128, 100, 1] array of bits from the initial bit 1: at (B, m)
    the only index that reduces there is (B, m, 0), so the result is 1 when that element is. -/
theorem reduce_andi_one (x : S128x100x1.Idx → BitVec 1) (init : S_.Idx → BitVec 1)
    (h : S128x100x1.ReducesTo [2] S128x100) (hu : 0 < S_.numel) (B : Fin 128) (m : Fin 100)
    (hinit : ∀ k, init k = 1#1) (hx : x (ix3 B m 0) = 1#1) :
    Host.reduce IntOp.andi x init h hu (ix2 B m) = 1#1 := by
  rw [Host.reduce_eq_foldl, hinit]
  refine foldl_andi_one x _ fun i hi => ?_
  have hd : h.drop i = ix2 B m := of_decide_eq_true (List.mem_filter.1 hi).2
  have h0 : (i 0).val = B.val :=
    (Shape.ReducesTo.drop_apply_val_of_eq h i 0 0).symm.trans (congrArg Fin.val (congrFun hd 0))
  have h1 : (i 1).val = m.val :=
    (Shape.ReducesTo.drop_apply_val_of_eq h i 1 1).symm.trans (congrArg Fin.val (congrFun hd 1))
  have h2 : (i 2).val < 1 := (i 2).isLt
  have hi' : i = ix3 B m 0 := by
    funext a
    match a with
    | ⟨0, _⟩ => exact Fin.ext h0
    | ⟨1, _⟩ => exact Fin.ext h1
    | ⟨2, _⟩ => exact Fin.ext (show (i 2).val = 0 by omega)
  rw [hi']; exact hx

/-! ## The batched take along the class axis, read at an index -/

/-- The gather's dimension numbers: operand batch axis 0 paired with the indices' batch axis 0, offset axis 1 (all 900
    queries), the class axis 2 collapsed and addressed by an index vector of length one. -/
abbrev gd : GatherDims S128x900x91 S128x100x1 S128x900x100 :=
  gather_S128x900x91_S128x100x1_S128x900x100_1_2_0_0_2_2_19001

/-- Result element (B, n, m) is the operand at (B, n, c), c the start index at (B, m, 0) read signed and clamped into
    [0, 90]: on the batch axis the result's batch coordinate, on the offset axis its offset coordinate, on the collapsed
    axis the clamped start. -/
theorem gather_at {α : Type} (x : S128x900x91.Idx → α) (idx : IVec S128x100x1 32) (B : Fin 128) (n : Fin 900) (m : Fin 100) :
    Host.gather gd x idx (ix3 B n m) = x (ix3 B n ⟨min (idx (ix3 B m 0)).toInt.toNat 90, by omega⟩) := by
  unfold Host.gather
  refine congrArg x (funext fun a => Fin.ext ?_)
  match a with
  | ⟨0, _⟩ =>
    show gd.start (ix3 B n m) idx (0 : Fin 3) + gd.batchCoord (ix3 B n m) (0 : Fin 3) + gd.offCoord (ix3 B n m) (0 : Fin 3) = B.val
    have hb : (0 : Fin 3) ∈ gd.operandBatchingDims := List.mem_singleton.mpr rfl
    rw [GatherDims.start_batching gd _ idx _ hb,
      GatherDims.offCoord_eq_zero gd _ _ (fun hk => ((GatherDims.mem_sKept gd _).1 hk).2 hb)]
    simp only [Nat.zero_add, Nat.add_zero]
    unfold GatherDims.batchCoord
    rw [dif_pos hb]
    rfl
  | ⟨1, _⟩ =>
    show gd.start (ix3 B n m) idx (1 : Fin 3) + gd.batchCoord (ix3 B n m) (1 : Fin 3) + gd.offCoord (ix3 B n m) (1 : Fin 3) = n.val
    have hs : gd.start (ix3 B n m) idx (1 : Fin 3) = 0 := by
      unfold GatherDims.start
      exact dif_neg (show (1 : Fin 3) ∉ [(2 : Fin 3)] by decide)
    have hb : (1 : Fin 3) ∉ gd.operandBatchingDims := show (1 : Fin 3) ∉ [(0 : Fin 3)] by decide
    have hk : (1 : Fin 3) ∈ gd.sKept :=
      (GatherDims.mem_sKept gd _).2 ⟨show (1 : Fin 3) ∉ [(2 : Fin 3)] by decide, hb⟩
    rw [hs, GatherDims.batchCoord_eq_zero gd _ _ hb]
    simp only [Nat.zero_add]
    unfold GatherDims.offCoord
    rw [dif_pos hk]
    rfl
  | ⟨2, _⟩ =>
    show gd.start (ix3 B n m) idx (2 : Fin 3) + gd.batchCoord (ix3 B n m) (2 : Fin 3) + gd.offCoord (ix3 B n m) (2 : Fin 3)
      = min (idx (ix3 B m 0)).toInt.toNat 90
    have hm : (2 : Fin 3) ∈ gd.startIndexMap := List.mem_singleton.mpr rfl
    have hb : (2 : Fin 3) ∉ gd.operandBatchingDims := show (2 : Fin 3) ∉ [(0 : Fin 3)] by decide
    have hc : (2 : Fin 3) ∈ gd.collapsedSliceDims := List.mem_singleton.mpr rfl
    rw [GatherDims.batchCoord_eq_zero gd _ _ hb,
      GatherDims.offCoord_eq_zero gd _ _ (fun hk => ((GatherDims.mem_sKept gd _).1 hk).1 hc)]
    simp only [Nat.add_zero]
    unfold GatherDims.start
    rw [dif_pos hm]
    have hsi : gd.siIdx (ix3 B n m) ⟨List.idxOf (2 : Fin 3) gd.startIndexMap, List.idxOf_lt_length_iff.2 hm⟩
        = ix3 B m 0 := by
      funext b
      match b with
      | ⟨0, _⟩ => rfl
      | ⟨1, _⟩ => rfl
      | ⟨2, _⟩ => rfl
    rw [hsi]
    rfl

/-! ## The called function's operations at (B, m), for a label in range -/

/-- The start-index word at (B, m, 0) is the label: the reshape [128, 1, 100] → [128, 100, 1] reads (B, 0, m), the
    broadcast reads the label at (B, m), and a label that is not negative is not shifted. -/
theorem idx_word (x2 : (⟨S128x100, .i32⟩ : BufTy).Contents (Elt Ideal)) (B : Fin 128) (m : Fin 100)
    (hlab : (x2 (ix2 B m)).toNat < 91) :
    val_main_call0_v5 (F := Ideal) x2 (ix3 B m 0) = x2 (ix2 B m) := by
  have hi : idx_main_call0_v5 (ix3 B m (0 : Fin 1)) = ix3 B (0 : Fin 1) m := by
    funext a
    match a with
    | ⟨0, _⟩ =>
      exact Fin.ext (show ((B.val * 100 + m.val) * 1 + 0) / 100 = B.val by have := m.isLt; omega)
    | ⟨1, _⟩ => rfl
    | ⟨2, _⟩ =>
      exact Fin.ext (show ((B.val * 100 + m.val) * 1 + 0) % 100 = m.val by have := m.isLt; omega)
  have h29 : val_main_v29 (F := Ideal) x2 (ix3 B (0 : Fin 1) m) = x2 (ix2 B m) := by
    rw [val_main_v29_apply]
    exact congrArg x2 (funext fun a => by match a with | ⟨0, _⟩ => rfl | ⟨1, _⟩ => rfl)
  rw [val_main_call0_v5_apply, hi, val_main_call0_v4_apply, val_main_call0_v1_apply, h29, val_main_call0_v0_apply,
    val_main_call0_c_apply, slt_zero _ hlab, select_zero]

/-- The range test's bit at (B, m, 0) is 1: the word is at least 0 and at most 90. -/
theorem mask_elt (x2 : (⟨S128x100, .i32⟩ : BufTy).Contents (Elt Ideal)) (B : Fin 128) (m : Fin 100)
    (hlab : (x2 (ix2 B m)).toNat < 91) :
    val_main_call0_v11 (F := Ideal) x2 (ix3 B m 0) = 1#1 := by
  rw [val_main_call0_v11_apply, val_main_call0_v7_apply, val_main_call0_v10_apply, idx_word x2 B m hlab,
    val_main_call0_v6_apply, val_main_call0_c_2_apply, val_main_call0_v9_apply, val_main_call0_v8_apply,
    val_main_call0_c_1_apply, sge_zero _ hlab, sle_ninety _ hlab]
  decide

/-- The test reduced over its last axis is 1 at (B, m). -/
theorem mask_one (x2 : (⟨S128x100, .i32⟩ : BufTy).Contents (Elt Ideal)) (B : Fin 128) (m : Fin 100)
    (hlab : (x2 (ix2 B m)).toNat < 91) :
    val_main_call0_v12 (F := Ideal) x2 (ix2 B m) = 1#1 := by
  unfold val_main_call0_v12
  exact reduce_andi_one _ _ _ _ B m (fun _ => rfl) (mask_elt x2 B m hlab)

/-! ## The stage -/

/-- The gathered class cost at (B, n, m), for a label in range: the focal cost of logit (B, n, label). -/
theorem cls_at (x0 : (⟨S128x900x91, .f32⟩ : BufTy).Contents (Elt Ideal)) (x2 : (⟨S128x100, .i32⟩ : BufTy).Contents (Elt Ideal))
    (B : Fin 128) (n : Fin 900) (m : Fin 100) (hlab : (x2 (ix2 B m)).toNat < 91) :
    val_main_v30 (F := Ideal) x0 x2 (ix3 B n m) = focalR (x0 (ix3 B n ⟨(x2 (ix2 B m)).toNat, hlab⟩)) := by
  have hm : val_main_call0_v14 (F := Ideal) x2 (ix3 B n m) = 1#1 := by
    have hj : idx_main_call0_v14 (ix3 B n m) = ix2 B m := by
      funext a
      match a with
      | ⟨0, _⟩ => rfl
      | ⟨1, _⟩ => rfl
    rw [val_main_call0_v14_apply, hj]
    exact mask_one x2 B m hlab
  rw [val_main_v30_apply, hm, select_one]
  unfold val_main_call0_v13
  refine (gather_at (val_main_v28 (F := Ideal) x0) (val_main_call0_v5 (F := Ideal) x2) B n m).trans ?_
  rw [focal_at]
  refine congrArg (fun k => focalR (x0 (ix3 B n k))) (Fin.ext ?_)
  show min (val_main_call0_v5 (F := Ideal) x2 (ix3 B m 0)).toInt.toNat 90 = (x2 (ix2 B m)).toNat
  rw [idx_word x2 B m hlab, toInt_of_lt _ hlab]
  omega

end Cert.RefAt

end
-- ==== Proof.RefL1.lean ====
/-
  The reference's L1 stage at an index: a sum from zero, over the four coordinates, of |pred − tgt|.
-/
import proofs.«412822_j86912958202054_2_alg».proof.Proof.RefRead
import proofs.«412822_j86912958202054_2_alg».proof.Proof.CostSpec
import Idealize.ShloMosaic.Lib.ValueIdx
import Idealize.ShloMosaic.Lib.Pipeline.Value
import Idealize.ShloMosaic.PureOps.Ideal.Laws

noncomputable section

namespace Cert.RefAt

open Idealize.ShloMosaic Idealize.ShloMosaic.ValueIdx Cert.ReferenceIdeal Cert.ReferenceIdeal.Read Cert.CostSpec
open scoped BigOperators

/-- The predicted boxes spread over the targets: entry (B, n, m, k) of the spread array is read, through the two
    spreading steps, at (B, n, k) of the predicted boxes. -/
theorem pred_idx (B : Fin 128) (n : Fin 900) (m : Fin 100) (k : Fin 4) :
    idx_main_v31 (idx_main_v33 (idx_main_v37 (ix3 B n m) k)) = ix3 B n k :=
  funext fun a => by
    match a with
    | ⟨0, _⟩ => rfl
    | ⟨1, _⟩ => rfl
    | ⟨2, _⟩ => rfl

/-- The target boxes spread over the queries: entry (B, n, m, k) of the spread array is read, through the two
    spreading steps, at (B, m, k) of the target boxes. -/
theorem tgt_idx (B : Fin 128) (n : Fin 900) (m : Fin 100) (k : Fin 4) :
    idx_main_v32 (idx_main_v34 (idx_main_v37 (ix3 B n m) k)) = ix3 B m k :=
  funext fun a => by
    match a with
    | ⟨0, _⟩ => rfl
    | ⟨1, _⟩ => rfl
    | ⟨2, _⟩ => rfl

/-- One summand of the stage: the absolute difference at (B, n, m, k) is |pred (B, n, k) − tgt (B, m, k)|. -/
theorem absdiff_at (x1 : (⟨S128x900x4, .f32⟩ : BufTy).Contents (Elt Ideal)) (x3 : (⟨S128x100x4, .f32⟩ : BufTy).Contents (Elt Ideal))
    (B : Fin 128) (n : Fin 900) (m : Fin 100) (k : Fin 4) :
    val_main_v36 (F := Ideal) x1 x3 (idx_main_v37 (ix3 B n m) k) = absE (x1 (ix3 B n k) - x3 (ix3 B m k)) := by
  -- the absolute value and the difference are elementwise; each spread array reads its operand at the index above
  rw [val_main_v36_apply, val_main_v35_apply, val_main_v33_apply, val_main_v31_apply, val_main_v34_apply,
    val_main_v32_apply, pred_idx, tgt_idx]
  rfl

/-- The L1 stage at (B, n, m). -/
theorem l1_at (x1 : (⟨S128x900x4, .f32⟩ : BufTy).Contents (Elt Ideal)) (x3 : (⟨S128x100x4, .f32⟩ : BufTy).Contents (Elt Ideal))
    (B : Fin 128) (n : Fin 900) (m : Fin 100) :
    val_main_v37 (F := Ideal) x1 x3 (ix3 B n m) = l1R (fun k => x1 (ix3 B n k)) (fun k => x3 (ix3 B m k)) := by
  -- the sum over axis 3 from the initial value, which is the constant zero
  rw [val_main_v37_apply]
  unfold l1R
  exact congrArg₂ (· + ·) rfl (Finset.sum_congr rfl fun k _ => absdiff_at x1 x3 B n m k)

end Cert.RefAt

end
-- ==== Proof.RefGiou.lean ====
/-
  The reference's GIoU stage at an index.

  The reference turns both box arrays into corner form by slicing and joining four columns, takes the areas
  from the joined arrays, and forms the intersection's and the enclosing box's extents on arrays with a
  trailing axis of two (x and y), clamped at zero, before multiplying the two extents. Read at (B, n, m) the
  stage is the scalar GIoU of boxes pred (B, n, ·) and tgt (B, m, ·).
-/
import proofs.«412822_j86912958202054_2_alg».proof.Proof.RefRead
import proofs.«412822_j86912958202054_2_alg».proof.Proof.CostSpec
import Idealize.ShloMosaic.Lib.ValueIdx
import Idealize.ShloMosaic.Lib.Pipeline.Value

noncomputable section

namespace Cert.RefAt

open Idealize.ShloMosaic Idealize.ShloMosaic.ValueIdx Cert.ReferenceIdeal Cert.ReferenceIdeal.Read Cert.CostSpec

/-! The stages of the chain, each read at explicit coordinates: corners, areas, the clamped extents of the
    intersection and of the enclosing box. -/
namespace Giou

/-! ## Indices by coordinates -/

/-- Two rank-3 indices with equal coordinates are equal. -/
theorem idx3_ext {s : Fin 3 → Nat} {x y : (⟨3, s⟩ : Shape).Idx} (h0 : x 0 = y 0) (h1 : x 1 = y 1) (h2 : x 2 = y 2) : x = y :=
  funext fun a => match a with | ⟨0, _⟩ => h0 | ⟨1, _⟩ => h1 | ⟨2, _⟩ => h2

/-- Two rank-4 indices with equal coordinates are equal. -/
theorem idx4_ext {s : Fin 4 → Nat} {x y : (⟨4, s⟩ : Shape).Idx} (h0 : x 0 = y 0) (h1 : x 1 = y 1) (h2 : x 2 = y 2)
    (h3 : x 3 = y 3) : x = y :=
  funext fun a => match a with | ⟨0, _⟩ => h0 | ⟨1, _⟩ => h1 | ⟨2, _⟩ => h2 | ⟨3, _⟩ => h3

section
variable (x1 : (⟨S128x900x4, .f32⟩ : BufTy).Contents (Elt Ideal)) (x3 : (⟨S128x100x4, .f32⟩ : BufTy).Contents (Elt Ideal))
variable (B : Fin 128) (n : Fin 900) (m : Fin 100)

/-! ## The predicted boxes in corner form

The four columns cx, cy, w, h of pred (B, n, ·), the constant ½, and the four corners
cx − ½ w, cy − ½ h, cx + ½ w, cy + ½ h, each a column read at (B, n, 0). -/

theorem v38_at : val_main_v38 (F := Ideal) x1 (ix3 B n 0) = x1 (ix3 B n 0) :=
  (val_main_v38_apply x1 _).trans (congrArg x1 (idx3_ext rfl rfl rfl))
theorem v39_at : val_main_v39 (F := Ideal) x1 (ix3 B n 0) = x1 (ix3 B n 1) :=
  (val_main_v39_apply x1 _).trans (congrArg x1 (idx3_ext rfl rfl rfl))
theorem v40_at : val_main_v40 (F := Ideal) x1 (ix3 B n 0) = x1 (ix3 B n 2) :=
  (val_main_v40_apply x1 _).trans (congrArg x1 (idx3_ext rfl rfl rfl))
theorem v41_at : val_main_v41 (F := Ideal) x1 (ix3 B n 0) = x1 (ix3 B n 3) :=
  (val_main_v41_apply x1 _).trans (congrArg x1 (idx3_ext rfl rfl rfl))

theorem v42_at (i : S128x900x1.Idx) : val_main_v42 (F := Ideal) i = cHalf := (val_main_v42_apply i).trans rfl
theorem v45_at (i : S128x900x1.Idx) : val_main_v45 (F := Ideal) i = cHalf := (val_main_v45_apply i).trans rfl
theorem v48_at (i : S128x900x1.Idx) : val_main_v48 (F := Ideal) i = cHalf := (val_main_v48_apply i).trans rfl
theorem v51_at (i : S128x900x1.Idx) : val_main_v51 (F := Ideal) i = cHalf := (val_main_v51_apply i).trans rfl

theorem v44_at : val_main_v44 (F := Ideal) x1 (ix3 B n 0) = x1 (ix3 B n 0) - cHalf * x1 (ix3 B n 2) := by
  simp only [val_main_v44_apply, val_main_v43_apply, v38_at, v40_at, v42_at, Ideal.subf_def, Ideal.mulf_def]
theorem v47_at : val_main_v47 (F := Ideal) x1 (ix3 B n 0) = x1 (ix3 B n 1) - cHalf * x1 (ix3 B n 3) := by
  simp only [val_main_v47_apply, val_main_v46_apply, v39_at, v41_at, v45_at, Ideal.subf_def, Ideal.mulf_def]
theorem v50_at : val_main_v50 (F := Ideal) x1 (ix3 B n 0) = x1 (ix3 B n 0) + cHalf * x1 (ix3 B n 2) := by
  simp only [val_main_v50_apply, val_main_v49_apply, v38_at, v40_at, v48_at, Ideal.addf_def, Ideal.mulf_def]
theorem v53_at : val_main_v53 (F := Ideal) x1 (ix3 B n 0) = x1 (ix3 B n 1) + cHalf * x1 (ix3 B n 3) := by
  simp only [val_main_v53_apply, val_main_v52_apply, v39_at, v41_at, v51_at, Ideal.addf_def, Ideal.mulf_def]

/-! The joined corner array: entry k of (B, n, ·) is the k-th of the four corner columns at (B, n, 0). A join of
unit columns along the last axis reads, at last coordinate k, piece k: the k pieces before it are k wide together,
and off the last axis (B, n, 0) and (B, n, k) have the same coordinates. -/

theorem v54_0 : val_main_v54 (F := Ideal) x1 (ix3 B n 0) = x1 (ix3 B n 0) - cHalf * x1 (ix3 B n 2) := by
  refine Eq.trans ?_ (v44_at x1 B n)
  unfold val_main_v54
  refine concatenate_apply_piece (t := S128x900x4) 2 _ _ (ix3 B n 0) 0 ?_ S128x900x1 (val_main_v44 x1) ?_ ?_ 0 ?_ (ix3 B n 0) ?_ ?_
  · simp
  · rfl
  · rfl
  · rfl
  · intro b hb
    match b, hb with
    | ⟨0, _⟩, _ => rfl
    | ⟨1, _⟩, _ => rfl
    | ⟨2, _⟩, hb => exact absurd rfl hb
  · rfl

theorem v54_1 : val_main_v54 (F := Ideal) x1 (ix3 B n 1) = x1 (ix3 B n 1) - cHalf * x1 (ix3 B n 3) := by
  refine Eq.trans ?_ (v47_at x1 B n)
  unfold val_main_v54
  refine concatenate_apply_piece (t := S128x900x4) 2 _ _ (ix3 B n 1) 1 ?_ S128x900x1 (val_main_v47 x1) ?_ ?_ 1 ?_ (ix3 B n 0) ?_ ?_
  · simp
  · rfl
  · rfl
  · rfl
  · intro b hb
    match b, hb with
    | ⟨0, _⟩, _ => rfl
    | ⟨1, _⟩, _ => rfl
    | ⟨2, _⟩, hb => exact absurd rfl hb
  · rfl

theorem v54_2 : val_main_v54 (F := Ideal) x1 (ix3 B n 2) = x1 (ix3 B n 0) + cHalf * x1 (ix3 B n 2) := by
  refine Eq.trans ?_ (v50_at x1 B n)
  unfold val_main_v54
  refine concatenate_apply_piece (t := S128x900x4) 2 _ _ (ix3 B n 2) 2 ?_ S128x900x1 (val_main_v50 x1) ?_ ?_ 2 ?_ (ix3 B n 0) ?_ ?_
  · simp
  · rfl
  · rfl
  · rfl
  · intro b hb
    match b, hb with
    | ⟨0, _⟩, _ => rfl
    | ⟨1, _⟩, _ => rfl
    | ⟨2, _⟩, hb => exact absurd rfl hb
  · rfl

theorem v54_3 : val_main_v54 (F := Ideal) x1 (ix3 B n 3) = x1 (ix3 B n 1) + cHalf * x1 (ix3 B n 3) := by
  refine Eq.trans ?_ (v53_at x1 B n)
  unfold val_main_v54
  refine concatenate_apply_piece (t := S128x900x4) 2 _ _ (ix3 B n 3) 3 ?_ S128x900x1 (val_main_v53 x1) ?_ ?_ 3 ?_ (ix3 B n 0) ?_ ?_
  · simp
  · rfl
  · rfl
  · rfl
  · intro b hb
    match b, hb with
    | ⟨0, _⟩, _ => rfl
    | ⟨1, _⟩, _ => rfl
    | ⟨2, _⟩, hb => exact absurd rfl hb
  · rfl

/-! ## The target boxes in corner form: the same over tgt (B, m, ·) -/

theorem v55_at : val_main_v55 (F := Ideal) x3 (ix3 B m 0) = x3 (ix3 B m 0) :=
  (val_main_v55_apply x3 _).trans (congrArg x3 (idx3_ext rfl rfl rfl))
theorem v56_at : val_main_v56 (F := Ideal) x3 (ix3 B m 0) = x3 (ix3 B m 1) :=
  (val_main_v56_apply x3 _).trans (congrArg x3 (idx3_ext rfl rfl rfl))
theorem v57_at : val_main_v57 (F := Ideal) x3 (ix3 B m 0) = x3 (ix3 B m 2) :=
  (val_main_v57_apply x3 _).trans (congrArg x3 (idx3_ext rfl rfl rfl))
theorem v58_at : val_main_v58 (F := Ideal) x3 (ix3 B m 0) = x3 (ix3 B m 3) :=
  (val_main_v58_apply x3 _).trans (congrArg x3 (idx3_ext rfl rfl rfl))

theorem v59_at (i : S128x100x1.Idx) : val_main_v59 (F := Ideal) i = cHalf := (val_main_v59_apply i).trans rfl
theorem v62_at (i : S128x100x1.Idx) : val_main_v62 (F := Ideal) i = cHalf := (val_main_v62_apply i).trans rfl
theorem v65_at (i : S128x100x1.Idx) : val_main_v65 (F := Ideal) i = cHalf := (val_main_v65_apply i).trans rfl
theorem v68_at (i : S128x100x1.Idx) : val_main_v68 (F := Ideal) i = cHalf := (val_main_v68_apply i).trans rfl

theorem v61_at : val_main_v61 (F := Ideal) x3 (ix3 B m 0) = x3 (ix3 B m 0) - cHalf * x3 (ix3 B m 2) := by
  simp only [val_main_v61_apply, val_main_v60_apply, v55_at, v57_at, v59_at, Ideal.subf_def, Ideal.mulf_def]
theorem v64_at : val_main_v64 (F := Ideal) x3 (ix3 B m 0) = x3 (ix3 B m 1) - cHalf * x3 (ix3 B m 3) := by
  simp only [val_main_v64_apply, val_main_v63_apply, v56_at, v58_at, v62_at, Ideal.subf_def, Ideal.mulf_def]
theorem v67_at : val_main_v67 (F := Ideal) x3 (ix3 B m 0) = x3 (ix3 B m 0) + cHalf * x3 (ix3 B m 2) := by
  simp only [val_main_v67_apply, val_main_v66_apply, v55_at, v57_at, v65_at, Ideal.addf_def, Ideal.mulf_def]
theorem v70_at : val_main_v70 (F := Ideal) x3 (ix3 B m 0) = x3 (ix3 B m 1) + cHalf * x3 (ix3 B m 3) := by
  simp only [val_main_v70_apply, val_main_v69_apply, v56_at, v58_at, v68_at, Ideal.addf_def, Ideal.mulf_def]

theorem v71_0 : val_main_v71 (F := Ideal) x3 (ix3 B m 0) = x3 (ix3 B m 0) - cHalf * x3 (ix3 B m 2) := by
  refine Eq.trans ?_ (v61_at x3 B m)
  unfold val_main_v71
  refine concatenate_apply_piece (t := S128x100x4) 2 _ _ (ix3 B m 0) 0 ?_ S128x100x1 (val_main_v61 x3) ?_ ?_ 0 ?_ (ix3 B m 0) ?_ ?_
  · simp
  · rfl
  · rfl
  · rfl
  · intro b hb
    match b, hb with
    | ⟨0, _⟩, _ => rfl
    | ⟨1, _⟩, _ => rfl
    | ⟨2, _⟩, hb => exact absurd rfl hb
  · rfl

theorem v71_1 : val_main_v71 (F := Ideal) x3 (ix3 B m 1) = x3 (ix3 B m 1) - cHalf * x3 (ix3 B m 3) := by
  refine Eq.trans ?_ (v64_at x3 B m)
  unfold val_main_v71
  refine concatenate_apply_piece (t := S128x100x4) 2 _ _ (ix3 B m 1) 1 ?_ S128x100x1 (val_main_v64 x3) ?_ ?_ 1 ?_ (ix3 B m 0) ?_ ?_
  · simp
  · rfl
  · rfl
  · rfl
  · intro b hb
    match b, hb with
    | ⟨0, _⟩, _ => rfl
    | ⟨1, _⟩, _ => rfl
    | ⟨2, _⟩, hb => exact absurd rfl hb
  · rfl

theorem v71_2 : val_main_v71 (F := Ideal) x3 (ix3 B m 2) = x3 (ix3 B m 0) + cHalf * x3 (ix3 B m 2) := by
  refine Eq.trans ?_ (v67_at x3 B m)
  unfold val_main_v71
  refine concatenate_apply_piece (t := S128x100x4) 2 _ _ (ix3 B m 2) 2 ?_ S128x100x1 (val_main_v67 x3) ?_ ?_ 2 ?_ (ix3 B m 0) ?_ ?_
  · simp
  · rfl
  · rfl
  · rfl
  · intro b hb
    match b, hb with
    | ⟨0, _⟩, _ => rfl
    | ⟨1, _⟩, _ => rfl
    | ⟨2, _⟩, hb => exact absurd rfl hb
  · rfl

theorem v71_3 : val_main_v71 (F := Ideal) x3 (ix3 B m 3) = x3 (ix3 B m 1) + cHalf * x3 (ix3 B m 3) := by
  refine Eq.trans ?_ (v70_at x3 B m)
  unfold val_main_v71
  refine concatenate_apply_piece (t := S128x100x4) 2 _ _ (ix3 B m 3) 3 ?_ S128x100x1 (val_main_v70 x3) ?_ ?_ 3 ?_ (ix3 B m 0) ?_ ?_
  · simp
  · rfl
  · rfl
  · rfl
  · intro b hb
    match b, hb with
    | ⟨0, _⟩, _ => rfl
    | ⟨1, _⟩, _ => rfl
    | ⟨2, _⟩, hb => exact absurd rfl hb
  · rfl

/-! ## The areas

A reshape that drops the trailing unit axis reads (B, n) at (B, n, 0): the row-major position
B · 900 + n splits back into B and n. -/

theorem rs_pred : idx_main_v73 (ix2 B n) = ix3 B n 0 := by
  have hn := n.isLt
  exact idx3_ext (Fin.ext (by show (B.val * 900 + n.val) / 900 = B.val; omega))
    (Fin.ext (by show (B.val * 900 + n.val) / 1 % 900 = n.val; omega)) rfl

theorem rs_tgt : idx_main_v84 (ix2 B m) = ix3 B m 0 := by
  have hm := m.isLt
  exact idx3_ext (Fin.ext (by show (B.val * 100 + m.val) / 100 = B.val; omega))
    (Fin.ext (by show (B.val * 100 + m.val) / 1 % 100 = m.val; omega)) rfl

theorem v73_at : val_main_v73 (F := Ideal) x1 (ix2 B n) = val_main_v54 (F := Ideal) x1 (ix3 B n 2) :=
  (val_main_v73_apply x1 _).trans ((congrArg (val_main_v72 (F := Ideal) x1) (rs_pred B n)).trans
    ((val_main_v72_apply x1 _).trans (congrArg (val_main_v54 (F := Ideal) x1) (idx3_ext rfl rfl rfl))))
theorem v75_at : val_main_v75 (F := Ideal) x1 (ix2 B n) = val_main_v54 (F := Ideal) x1 (ix3 B n 0) :=
  (val_main_v75_apply x1 _).trans ((congrArg (val_main_v74 (F := Ideal) x1) (rs_pred B n)).trans
    ((val_main_v74_apply x1 _).trans (congrArg (val_main_v54 (F := Ideal) x1) (idx3_ext rfl rfl rfl))))
theorem v78_at : val_main_v78 (F := Ideal) x1 (ix2 B n) = val_main_v54 (F := Ideal) x1 (ix3 B n 3) :=
  (val_main_v78_apply x1 _).trans ((congrArg (val_main_v77 (F := Ideal) x1) (rs_pred B n)).trans
    ((val_main_v77_apply x1 _).trans (congrArg (val_main_v54 (F := Ideal) x1) (idx3_ext rfl rfl rfl))))
theorem v80_at : val_main_v80 (F := Ideal) x1 (ix2 B n) = val_main_v54 (F := Ideal) x1 (ix3 B n 1) :=
  (val_main_v80_apply x1 _).trans ((congrArg (val_main_v79 (F := Ideal) x1) (rs_pred B n)).trans
    ((val_main_v79_apply x1 _).trans (congrArg (val_main_v54 (F := Ideal) x1) (idx3_ext rfl rfl rfl))))

/-- The predicted box's area: (right − left) · (bottom − top). -/
theorem v82_at : val_main_v82 (F := Ideal) x1 (ix2 B n)
    = (val_main_v54 (F := Ideal) x1 (ix3 B n 2) - val_main_v54 (F := Ideal) x1 (ix3 B n 0))
      * (val_main_v54 (F := Ideal) x1 (ix3 B n 3) - val_main_v54 (F := Ideal) x1 (ix3 B n 1)) := by
  simp only [val_main_v82_apply, val_main_v76_apply, val_main_v81_apply, v73_at, v75_at, v78_at, v80_at,
    Ideal.subf_def, Ideal.mulf_def]

theorem v84_at : val_main_v84 (F := Ideal) x3 (ix2 B m) = val_main_v71 (F := Ideal) x3 (ix3 B m 2) :=
  (val_main_v84_apply x3 _).trans ((congrArg (val_main_v83 (F := Ideal) x3) (rs_tgt B m)).trans
    ((val_main_v83_apply x3 _).trans (congrArg (val_main_v71 (F := Ideal) x3) (idx3_ext rfl rfl rfl))))
theorem v86_at : val_main_v86 (F := Ideal) x3 (ix2 B m) = val_main_v71 (F := Ideal) x3 (ix3 B m 0) :=
  (val_main_v86_apply x3 _).trans ((congrArg (val_main_v85 (F := Ideal) x3) (rs_tgt B m)).trans
    ((val_main_v85_apply x3 _).trans (congrArg (val_main_v71 (F := Ideal) x3) (idx3_ext rfl rfl rfl))))
theorem v89_at : val_main_v89 (F := Ideal) x3 (ix2 B m) = val_main_v71 (F := Ideal) x3 (ix3 B m 3) :=
  (val_main_v89_apply x3 _).trans ((congrArg (val_main_v88 (F := Ideal) x3) (rs_tgt B m)).trans
    ((val_main_v88_apply x3 _).trans (congrArg (val_main_v71 (F := Ideal) x3) (idx3_ext rfl rfl rfl))))
theorem v91_at : val_main_v91 (F := Ideal) x3 (ix2 B m) = val_main_v71 (F := Ideal) x3 (ix3 B m 1) :=
  (val_main_v91_apply x3 _).trans ((congrArg (val_main_v90 (F := Ideal) x3) (rs_tgt B m)).trans
    ((val_main_v90_apply x3 _).trans (congrArg (val_main_v71 (F := Ideal) x3) (idx3_ext rfl rfl rfl))))

/-- The target box's area. -/
theorem v93_at : val_main_v93 (F := Ideal) x3 (ix2 B m)
    = (val_main_v71 (F := Ideal) x3 (ix3 B m 2) - val_main_v71 (F := Ideal) x3 (ix3 B m 0))
      * (val_main_v71 (F := Ideal) x3 (ix3 B m 3) - val_main_v71 (F := Ideal) x3 (ix3 B m 1)) := by
  simp only [val_main_v93_apply, val_main_v87_apply, val_main_v92_apply, v84_at, v86_at, v89_at, v91_at,
    Ideal.subf_def, Ideal.mulf_def]

/-! ## The arrays with a trailing axis of two

Entry (B, n, m, e) of a spread pair of corner columns is corner k of the box it came from: k = e for the
left / top pair, k = 2 + e for the right / bottom pair; pred boxes keep n, target boxes keep m. -/

theorem v98_at (e : Fin 2) (k : Fin 4) (hk : k.val = e.val) :
    val_main_v98 (F := Ideal) x1 (ix4 B n m e) = val_main_v54 (F := Ideal) x1 (ix3 B n k) :=
  (val_main_v98_apply x1 _).trans ((val_main_v95_apply x1 _).trans ((val_main_v94_apply x1 _).trans
    (congrArg (val_main_v54 (F := Ideal) x1) (idx3_ext rfl rfl (Fin.ext hk.symm)))))
theorem v99_at (e : Fin 2) (k : Fin 4) (hk : k.val = e.val) :
    val_main_v99 (F := Ideal) x3 (ix4 B n m e) = val_main_v71 (F := Ideal) x3 (ix3 B m k) :=
  (val_main_v99_apply x3 _).trans ((val_main_v97_apply x3 _).trans ((val_main_v96_apply x3 _).trans
    (congrArg (val_main_v71 (F := Ideal) x3) (idx3_ext rfl rfl (Fin.ext hk.symm)))))
theorem v105_at (e : Fin 2) (k : Fin 4) (hk : k.val = 2 + e.val) :
    val_main_v105 (F := Ideal) x1 (ix4 B n m e) = val_main_v54 (F := Ideal) x1 (ix3 B n k) :=
  (val_main_v105_apply x1 _).trans ((val_main_v102_apply x1 _).trans ((val_main_v101_apply x1 _).trans
    (congrArg (val_main_v54 (F := Ideal) x1) (idx3_ext rfl rfl (Fin.ext hk.symm)))))
theorem v106_at (e : Fin 2) (k : Fin 4) (hk : k.val = 2 + e.val) :
    val_main_v106 (F := Ideal) x3 (ix4 B n m e) = val_main_v71 (F := Ideal) x3 (ix3 B m k) :=
  (val_main_v106_apply x3 _).trans ((val_main_v104_apply x3 _).trans ((val_main_v103_apply x3 _).trans
    (congrArg (val_main_v71 (F := Ideal) x3) (idx3_ext rfl rfl (Fin.ext hk.symm)))))
theorem v126_at (e : Fin 2) (k : Fin 4) (hk : k.val = e.val) :
    val_main_v126 (F := Ideal) x1 (ix4 B n m e) = val_main_v54 (F := Ideal) x1 (ix3 B n k) :=
  (val_main_v126_apply x1 _).trans ((val_main_v123_apply x1 _).trans ((val_main_v122_apply x1 _).trans
    (congrArg (val_main_v54 (F := Ideal) x1) (idx3_ext rfl rfl (Fin.ext hk.symm)))))
theorem v127_at (e : Fin 2) (k : Fin 4) (hk : k.val = e.val) :
    val_main_v127 (F := Ideal) x3 (ix4 B n m e) = val_main_v71 (F := Ideal) x3 (ix3 B m k) :=
  (val_main_v127_apply x3 _).trans ((val_main_v125_apply x3 _).trans ((val_main_v124_apply x3 _).trans
    (congrArg (val_main_v71 (F := Ideal) x3) (idx3_ext rfl rfl (Fin.ext hk.symm)))))
theorem v133_at (e : Fin 2) (k : Fin 4) (hk : k.val = 2 + e.val) :
    val_main_v133 (F := Ideal) x1 (ix4 B n m e) = val_main_v54 (F := Ideal) x1 (ix3 B n k) :=
  (val_main_v133_apply x1 _).trans ((val_main_v130_apply x1 _).trans ((val_main_v129_apply x1 _).trans
    (congrArg (val_main_v54 (F := Ideal) x1) (idx3_ext rfl rfl (Fin.ext hk.symm)))))
theorem v134_at (e : Fin 2) (k : Fin 4) (hk : k.val = 2 + e.val) :
    val_main_v134 (F := Ideal) x3 (ix4 B n m e) = val_main_v71 (F := Ideal) x3 (ix3 B m k) :=
  (val_main_v134_apply x3 _).trans ((val_main_v132_apply x3 _).trans ((val_main_v131_apply x3 _).trans
    (congrArg (val_main_v71 (F := Ideal) x3) (idx3_ext rfl rfl (Fin.ext hk.symm)))))

/-- The two clamps' zero, spread over the four-axis shape. -/
theorem z1_at (i : S128x900x100x2.Idx) : val_main_call1_v1 (F := Ideal) i = c0 := (val_main_call1_v1_apply i).trans rfl
theorem z2_at (i : S128x900x100x2.Idx) : val_main_call2_v1 (F := Ideal) i = c0 := (val_main_call2_v1_apply i).trans rfl

/-- The intersection's clamped extent along axis e: max 0 (min of the far corners − max of the near corners). -/
theorem v109_at (e : Fin 2) (lo hi : Fin 4) (hlo : lo.val = e.val) (hhi : hi.val = 2 + e.val) :
    val_main_v109 (F := Ideal) x1 x3 (ix4 B n m e)
      = max c0 (min (val_main_v54 (F := Ideal) x1 (ix3 B n hi)) (val_main_v71 (F := Ideal) x3 (ix3 B m hi))
          - max (val_main_v54 (F := Ideal) x1 (ix3 B n lo)) (val_main_v71 (F := Ideal) x3 (ix3 B m lo))) := by
  simp only [val_main_v109_apply, val_main_v108_apply, val_main_v107_apply, val_main_v100_apply, z1_at,
    v98_at x1 B n m e lo hlo, v99_at x3 B n m e lo hlo, v105_at x1 B n m e hi hhi, v106_at x3 B n m e hi hhi,
    Ideal.maximumf_def, Ideal.minimumf_def, Ideal.subf_def]

/-- The enclosing box's clamped extent along axis e: max 0 (max of the far corners − min of the near corners). -/
theorem v137_at (e : Fin 2) (lo hi : Fin 4) (hlo : lo.val = e.val) (hhi : hi.val = 2 + e.val) :
    val_main_v137 (F := Ideal) x1 x3 (ix4 B n m e)
      = max c0 (max (val_main_v54 (F := Ideal) x1 (ix3 B n hi)) (val_main_v71 (F := Ideal) x3 (ix3 B m hi))
          - min (val_main_v54 (F := Ideal) x1 (ix3 B n lo)) (val_main_v71 (F := Ideal) x3 (ix3 B m lo))) := by
  simp only [val_main_v137_apply, val_main_v136_apply, val_main_v135_apply, val_main_v128_apply, z2_at,
    v126_at x1 B n m e lo hlo, v127_at x3 B n m e lo hlo, v133_at x1 B n m e hi hhi, v134_at x3 B n m e hi hhi,
    Ideal.maximumf_def, Ideal.minimumf_def, Ideal.subf_def]

/-- Dropping the trailing unit axis of a four-axis array: (B, n, m) reads (B, n, m, 0). -/
theorem rs_pair : idx_main_v111 (ix3 B n m) = ix4 B n m 0 := by
  have hn := n.isLt
  have hm := m.isLt
  exact idx4_ext (Fin.ext (by show ((B.val * 900 + n.val) * 100 + m.val) / 90000 = B.val; omega))
    (Fin.ext (by show ((B.val * 900 + n.val) * 100 + m.val) / 100 % 900 = n.val; omega))
    (Fin.ext (by show ((B.val * 900 + n.val) * 100 + m.val) / 1 % 100 = m.val; omega)) rfl

theorem v111_at : val_main_v111 (F := Ideal) x1 x3 (ix3 B n m) = val_main_v109 (F := Ideal) x1 x3 (ix4 B n m 0) :=
  (val_main_v111_apply x1 x3 _).trans ((congrArg (val_main_v110 (F := Ideal) x1 x3) (rs_pair B n m)).trans
    ((val_main_v110_apply x1 x3 _).trans (congrArg (val_main_v109 (F := Ideal) x1 x3) (idx4_ext rfl rfl rfl rfl))))
theorem v113_at : val_main_v113 (F := Ideal) x1 x3 (ix3 B n m) = val_main_v109 (F := Ideal) x1 x3 (ix4 B n m 1) :=
  (val_main_v113_apply x1 x3 _).trans ((congrArg (val_main_v112 (F := Ideal) x1 x3) (rs_pair B n m)).trans
    ((val_main_v112_apply x1 x3 _).trans (congrArg (val_main_v109 (F := Ideal) x1 x3) (idx4_ext rfl rfl rfl rfl))))
theorem v139_at : val_main_v139 (F := Ideal) x1 x3 (ix3 B n m) = val_main_v137 (F := Ideal) x1 x3 (ix4 B n m 0) :=
  (val_main_v139_apply x1 x3 _).trans ((congrArg (val_main_v138 (F := Ideal) x1 x3) (rs_pair B n m)).trans
    ((val_main_v138_apply x1 x3 _).trans (congrArg (val_main_v137 (F := Ideal) x1 x3) (idx4_ext rfl rfl rfl rfl))))
theorem v141_at : val_main_v141 (F := Ideal) x1 x3 (ix3 B n m) = val_main_v137 (F := Ideal) x1 x3 (ix4 B n m 1) :=
  (val_main_v141_apply x1 x3 _).trans ((congrArg (val_main_v140 (F := Ideal) x1 x3) (rs_pair B n m)).trans
    ((val_main_v140_apply x1 x3 _).trans (congrArg (val_main_v137 (F := Ideal) x1 x3) (idx4_ext rfl rfl rfl rfl))))

/-! ## The areas spread to (B, n, m) -/

theorem v117_at : val_main_v117 (F := Ideal) x1 (ix3 B n m) = val_main_v82 (F := Ideal) x1 (ix2 B n) :=
  (val_main_v117_apply x1 _).trans ((val_main_v115_apply x1 _).trans
    (congrArg (val_main_v82 (F := Ideal) x1) (Shape.idx_ext₂ rfl rfl)))
theorem v118_at : val_main_v118 (F := Ideal) x3 (ix3 B n m) = val_main_v93 (F := Ideal) x3 (ix2 B m) :=
  (val_main_v118_apply x3 _).trans ((val_main_v116_apply x3 _).trans
    (congrArg (val_main_v93 (F := Ideal) x3) (Shape.idx_ext₂ rfl rfl)))

end

end Giou

/-! ## The stage -/

/-- The GIoU stage at (B, n, m). -/
theorem giou_at (x1 : (⟨S128x900x4, .f32⟩ : BufTy).Contents (Elt Ideal)) (x3 : (⟨S128x100x4, .f32⟩ : BufTy).Contents (Elt Ideal))
    (B : Fin 128) (n : Fin 900) (m : Fin 100) :
    val_main_v145 (F := Ideal) x1 x3 (ix3 B n m) = giouR (fun k => x1 (ix3 B n k)) (fun k => x3 (ix3 B m k)) := by
  open Giou in
  simp only [val_main_v145_apply, val_main_v144_apply, val_main_v143_apply, val_main_v142_apply, val_main_v121_apply,
    val_main_v120_apply, val_main_v119_apply, val_main_v114_apply, v111_at, v113_at, v139_at, v141_at, v117_at, v118_at,
    v82_at, v93_at, v109_at x1 x3 B n m 0 0 2 rfl rfl, v109_at x1 x3 B n m 1 1 3 rfl rfl,
    v137_at x1 x3 B n m 0 0 2 rfl rfl, v137_at x1 x3 B n m 1 1 3 rfl rfl,
    v54_0, v54_1, v54_2, v54_3, v71_0, v71_1, v71_2, v71_3,
    Ideal.subf_def, Ideal.addf_def, Ideal.mulf_def, Ideal.hostDivf_def]
  rfl

end Cert.RefAt

end
-- ==== Proof.RefWhole.lean ====
/-
  The reference's result at an index: the weighted total of its three stages.
-/
import proofs.«412822_j86912958202054_2_alg».proof.Proof.RefRead
import proofs.«412822_j86912958202054_2_alg».proof.Proof.RefCls
import proofs.«412822_j86912958202054_2_alg».proof.Proof.RefL1
import proofs.«412822_j86912958202054_2_alg».proof.Proof.RefGiou
import proofs.«412822_j86912958202054_2_alg».proof.Proof.CostSpec
import Idealize.ShloMosaic.Lib.ValueIdx

noncomputable section

namespace Cert.RefAt

open Idealize.ShloMosaic Idealize.ShloMosaic.ValueIdx Cert.ReferenceIdeal Cert.ReferenceIdeal.Read Cert.CostSpec

/-- The result at (B, n, q), for a label in range: 2 · class + 5 · L1 + 2 · (−GIoU). -/
theorem total_at (x0 : (⟨S128x900x91, .f32⟩ : BufTy).Contents (Elt Ideal)) (x1 : (⟨S128x900x4, .f32⟩ : BufTy).Contents (Elt Ideal))
    (x2 : (⟨S128x100, .i32⟩ : BufTy).Contents (Elt Ideal)) (x3 : (⟨S128x100x4, .f32⟩ : BufTy).Contents (Elt Ideal))
    (B : Fin 128) (n : Fin 900) (q : Fin 100) (hlab : (x2 (ix2 B q)).toNat < 91) :
    val_main_v154 (F := Ideal) x0 x1 x2 x3 (ix3 B n q)
      = totalR (focalR (x0 (ix3 B n ⟨(x2 (ix2 B q)).toNat, hlab⟩)))
          (l1R (fun k => x1 (ix3 B n k)) (fun k => x3 (ix3 B q k)))
          (giouR (fun k => x1 (ix3 B n k)) (fun k => x3 (ix3 B q k))) := by
  rw [← cls_at x0 x2 B n q hlab, ← l1_at x1 x3 B n q, ← giou_at x1 x3 B n q]
  rw [val_main_v154_apply, val_main_v151_apply, val_main_v153_apply, val_main_v148_apply, val_main_v150_apply,
    val_main_v146_apply, val_main_v147_apply, val_main_v149_apply, val_main_v152_apply, val_main_cst_20_apply,
    val_main_cst_21_apply, val_main_cst_22_apply]
  rfl

end Cert.RefAt

end
-- ==== Proof.lean ====
/-
  Equivalence over the extended reals of the matching-cost kernel and its reference.

  Both programs fill a [128, 900, 100] array whose entry (B, n, q) is
      2 · class(B, n, label(B, q)) + 5 · ‖pred(B, n, ·) − tgt(B, q, ·)‖₁ + 2 · (−GIoU(pred(B, n, ·), tgt(B, q, ·))).
  The precondition makes every float input finite and every label lie in [0, 91). The kernel picks the class cost
  by two matrix products against an indicator column (of the cost, and of the cost minus itself), the reference by
  a gather guarded by a range test; on a real cost and an in-range label both are the selected entry. The kernel
  squares by a product where the reference raises to the power 2, equal on the real sigmoid. The box terms are
  the same expressions up to the grouping of a four-term sum and the order of a maximum's arguments.

  The kernel's result array is read block by block off its frame run (the grid's 32 points each write four
  rows); the reference's off its run, one operation at a time. The two frames of the kernel are its generated
  frame; the reference's frame is its run with the result dropped; the one rewrite of the idealization is the
  identity of narrowing to bf16 and widening back.
-/
import proofs.«412822_j86912958202054_2_alg».proof.Defs
import proofs.«412822_j86912958202054_2_alg».proof.Proof.Gen.Kernel
import proofs.«412822_j86912958202054_2_alg».proof.Proof.Gen.Kernel.Skeleton
import proofs.«412822_j86912958202054_2_alg».proof.Proof.Gen.Kernel.Launch
import proofs.«412822_j86912958202054_2_alg».proof.Proof.Gen.Kernel.Points
import proofs.«412822_j86912958202054_2_alg».proof.Proof.Gen.Kernel.Frame
import proofs.«412822_j86912958202054_2_alg».proof.Proof.Gen.KernelIdeal
import proofs.«412822_j86912958202054_2_alg».proof.Proof.Gen.KernelIdeal.Skeleton
import proofs.«412822_j86912958202054_2_alg».proof.Proof.Gen.KernelIdeal.Launch
import proofs.«412822_j86912958202054_2_alg».proof.Proof.Gen.KernelIdeal.Points
import proofs.«412822_j86912958202054_2_alg».proof.Proof.Gen.KernelIdeal.Frame
import proofs.«412822_j86912958202054_2_alg».proof.Proof.Gen.ReferenceIdeal
import proofs.«412822_j86912958202054_2_alg».proof.Proof.Gen.Pre_finite_inputs
import proofs.«412822_j86912958202054_2_alg».proof.Proof.Gen.KernelIdeal.Value
import proofs.«412822_j86912958202054_2_alg».proof.Proof.RefRun
import proofs.«412822_j86912958202054_2_alg».proof.Proof.RefRead
import proofs.«412822_j86912958202054_2_alg».proof.Proof.CostSpec
import proofs.«412822_j86912958202054_2_alg».proof.Proof.CostLaws
import proofs.«412822_j86912958202054_2_alg».proof.Proof.PreFacts
import proofs.«412822_j86912958202054_2_alg».proof.Proof.KernelWhole
import proofs.«412822_j86912958202054_2_alg».proof.Proof.KernelHost
import proofs.«412822_j86912958202054_2_alg».proof.Proof.RefWhole
import Idealize.ShloMosaic.Adequacy
import Idealize.ShloMosaic.Init

noncomputable section

namespace Cert.Proof

open Idealize.ShloMosaic Idealize.ShloMosaic.TcCoe Idealize.SL.Sem Idealize.ShloMosaic.ValueIdx Cert.CostSpec Cert.CostLaws

/-- The result array both programs end with, as a function of the four argument arrays. -/
def cost (x0 : FVec Ideal ⟨3, ![128, 900, 91]⟩ .f32) (x1 : FVec Ideal ⟨3, ![128, 900, 4]⟩ .f32)
    (x2 : IVec ⟨2, ![128, 100]⟩ 32) (x3 : FVec Ideal ⟨3, ![128, 100, 4]⟩ .f32) :
    FVec Ideal ⟨3, ![128, 900, 100]⟩ .f32 :=
  fun i => totalR
    (if h : (x2 (ix2 (i 0) (i 2))).toNat < 91 then focalR (x0 (ix3 (i 0) (i 1) ⟨(x2 (ix2 (i 0) (i 2))).toNat, h⟩)) else c0)
    (l1R (fun k => x1 (ix3 (i 0) (i 1) k)) (fun k => x3 (ix3 (i 0) (i 2) k)))
    (giouR (fun k => x1 (ix3 (i 0) (i 1) k)) (fun k => x3 (ix3 (i 0) (i 2) k)))

section Kernel

open Cert.KernelIdeal Cert.KernelIdeal.Gen Cert.KernelIdeal.Whole

/-- The kernel's array, over the arrays as the region finds them, is the shared array of the arguments: the pick
    against the indicator column is the selected cost (a real, the logit being real; the label in range), and each
    term in the kernel's spelling is the term in the reference's. -/
theorem kernel_cost (m : (ℓ : Loc nD τ sig) → Buf (Elt Ideal) ℓ) (c : Dev nD)
    (hreal : ∀ i, ∃ r : ℝ, m ((c : Thread nD τ).loc main_arg0) i = (r : EReal))
    (hlab : ∀ j, (m ((c : Thread nD τ).loc main_arg2) j).toNat < 91) :
    costK (V m c main_arg0) (V m c main_arg1) (V m c main_v1) (V m c main_v0)
      = cost (m ((c : Thread nD τ).loc main_arg0)) (m ((c : Thread nD τ).loc main_arg1))
          (m ((c : Thread nD τ).loc main_arg2)) (m ((c : Thread nD τ).loc main_arg3)) := by
  funext i
  obtain ⟨B, n, q, rfl⟩ : ∃ (B : Fin 128) (n : Fin 900) (q : Fin 100), i = ix3 B n q := ⟨i 0, i 1, i 2, eq_ix3 i⟩
  have h := hlab (ix2 B q)
  obtain ⟨r, hr⟩ := hreal (ix3 B n ⟨_, h⟩)
  show totalK (pickK (fun k => focalK (V m c main_arg0 (ix3 B n k))) (V m c main_v0 (ix3 B 0 q)))
      (l1K (fun k => V m c main_arg1 (ix3 B n k)) (fun k => V m c main_v1 (ix3 B k q)))
      (giouK (fun k => V m c main_arg1 (ix3 B n k)) (fun k => V m c main_v1 (ix3 B k q)))
    = totalR (if h : (m ((c : Thread nD τ).loc main_arg2) (ix2 B q)).toNat < 91 then
          focalR (m ((c : Thread nD τ).loc main_arg0) (ix3 B n ⟨_, h⟩)) else c0)
        (l1R (fun k => m ((c : Thread nD τ).loc main_arg1) (ix3 B n k)) (fun k => m ((c : Thread nD τ).loc main_arg3) (ix3 B q k)))
        (giouR (fun k => m ((c : Thread nD τ).loc main_arg1) (ix3 B n k)) (fun k => m ((c : Thread nD τ).loc main_arg3) (ix3 B q k)))
  have e1 : (fun k : Fin 4 => V m c main_v1 (ix3 B k q)) = fun k => m ((c : Thread nD τ).loc main_arg3) (ix3 B q k) :=
    funext fun k => v1_at m c B k q
  rw [dif_pos h, V_main_arg0, V_main_arg1, v0_at, e1]
  rw [pick_eq _ _ h (focal r) (by rw [hr]; exact focalK_real r), hr, focalK_real, ← focalR_real, l1_eq, giou_eq, total_eq]

end Kernel

section Reference

open Cert.ReferenceIdeal Cert.ReferenceIdeal.Read

/-- The reference's last stage is the shared array, the labels being in range. -/
theorem reference_cost (x0 : (⟨S128x900x91, .f32⟩ : BufTy).Contents (Elt Ideal)) (x1 : (⟨S128x900x4, .f32⟩ : BufTy).Contents (Elt Ideal))
    (x2 : (⟨S128x100, .i32⟩ : BufTy).Contents (Elt Ideal)) (x3 : (⟨S128x100x4, .f32⟩ : BufTy).Contents (Elt Ideal))
    (hlab : ∀ j, (x2 j).toNat < 91) :
    val_main_v154 (F := Ideal) x0 x1 x2 x3 = cost x0 x1 x2 x3 := by
  funext i
  obtain ⟨B, n, q, rfl⟩ : ∃ (B : Fin 128) (n : Fin 900) (q : Fin 100), i = ix3 B n q := ⟨i 0, i 1, i 2, eq_ix3 i⟩
  have h := hlab (ix2 B q)
  rw [Cert.RefAt.total_at x0 x1 x2 x3 B n q h]
  show _ = totalR (if h : (x2 (ix2 B q)).toNat < 91 then focalR (x0 (ix3 B n ⟨_, h⟩)) else c0) _ _
  rw [dif_pos h]

end Reference

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Narrowing to bf16 and widening back is the identity on extended reals. -/
theorem preserves : Cert.preserves_Kernel_KernelIdeal := IdealRules.truncf_extf.statement _ .f32 .bf16

/-- Both runs end with the shared array of the (agreeing) arguments. -/
theorem algebraic : Cert.algebraic_KernelIdeal_ReferenceIdeal := by
  intro m ρ m' ρ' hpre hagree
  refine ⟨fun c => cost (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨?_, (h c).2⟩) (Cert.KernelIdeal.Value.run_blocks (F := Ideal) m ρ)
    obtain ⟨hreal, hlab⟩ := Cert.PreFacts.decode _ _ _ _ (hpre c)
    rw [(h c).1, Cert.KernelIdeal.Whole.final m c]
    exact kernel_cost m c hreal hlab
  · refine (θ_run Cert.ReferenceIdeal.defs _ _).mono (fun r h c => ⟨?_, (h c).2⟩) (Cert.ReferenceIdeal.Value.run (F := Ideal) m' ρ')
    obtain ⟨-, hlab⟩ := Cert.PreFacts.decode _ _ _ _ (hpre c)
    rw [(h c).1, Cert.ReferenceIdeal.Read.val_main_v154_eq, (hagree c).1, (hagree c).2.1, (hagree c).2.2.1, (hagree c).2.2.2]
    exact reference_cost _ _ _ _ hlab

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
